-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S768 : Shape := ⟨1, ![768]⟩
abbrev S768x1024 : Shape := ⟨2, ![768, 1024]⟩
abbrev S1024 : Shape := ⟨1, ![1024]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel
  bcast_S_S768 : S_.BroadcastsInDim S768 (![] : Fin 0 → Fin S768.rank)
  reducesTo_S768_S_d0 : S768.ReducesTo [0] S_
  bcast_S_S768x1024 : S_.BroadcastsInDim S768x1024 (![] : Fin 0 → Fin S768x1024.rank)
  reducesTo_S768x1024_S_d0_1 : S768x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S32x1024x768 .f32) (main_arg1 : FVec F S768 .f32) (main_arg2 : FVec F S768x1024 .f32) (main_arg3 : FVec F S1024 .f32) (main_arg4 : FVec F S1024 .f32) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  let main_v4 : FVec F S768 .f32 := Host.absf main_arg1
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_v9 : FVec F S768x1024 .f32 := Host.absf main_arg2
  let main_cst_2 : FVec F S_ .f32 := constant S_ .f32 0x7F800000#32
  let main_v10 : FVec F S768x1024 .f32 := broadcastInDim S768x1024 ![] bcast_S_S768x1024 main_cst_2
  let main_v11 : IVec S768x1024 1 := cmpf .olt main_v9 main_v10
  let main_c_3 : IVec S_ 1 := constantI S_ 1 1#1
  let main_v12 : IVec S_ 1 := (fun x v => Host.reduce IntOp.andi x v reducesTo_S768x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S32x1024x768 : Shape := ⟨3, ![32, 1024, 768]⟩
abbrev S768 : Shape := ⟨1, ![768]⟩
abbrev S768x1024 : Shape := ⟨2, ![768, 1024]⟩
abbrev S1024 : Shape := ⟨1, ![1024]⟩
abbrev S32768x768 : Shape := ⟨2, ![32768, 768]⟩
abbrev S32768x1024 : Shape := ⟨2, ![32768, 1024]⟩
abbrev S1024x768 : Shape := ⟨2, ![1024, 768]⟩
abbrev S1024x1024 : Shape := ⟨2, ![1024, 1024]⟩
abbrev S1024x1 : Shape := ⟨2, ![1024, 1]⟩
abbrev S1x768 : Shape := ⟨2, ![1, 768]⟩
abbrev S1x1024 : Shape := ⟨2, ![1, 1024]⟩
abbrev S32x1024x1024 : Shape := ⟨3, ![32, 1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S32x1024x768, .f32⟩
  | .hbm, ⟨1, _⟩ => ⟨S768, .f32⟩
  | .hbm, ⟨2, _⟩ => ⟨S768x1024, .f32⟩
  | .hbm, ⟨3, _⟩ => ⟨S1024, .f32⟩
  | .hbm, ⟨4, _⟩ => ⟨S1024, .f32⟩
  | .hbm, ⟨5, _⟩ => ⟨S32768x768, .f32⟩
  | .hbm, ⟨6, _⟩ => ⟨S768x1024, .bf16⟩
  | .hbm, ⟨7, _⟩ => ⟨S32768x1024, .f32⟩
  | .hbm, ⟨8, _⟩ => ⟨S32x1024x1024, .f32⟩
  | .local _ .vmem, ⟨0, _⟩ => ⟨S1024x768, .f32⟩
  | .local _ .vmem, ⟨1, _⟩ => ⟨S1024x768, .f32⟩
  | .local _ .vmem, ⟨2, _⟩ => ⟨S768, .f32⟩
  | .local _ .vmem, ⟨3, _⟩ => ⟨S768x1024, .bf16⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x1024x768_S32768x768 : S32x1024x768.ShapeCasts S32768x768
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  reduces_S1024x768_S1024 : S1024x768.Reduces [1] S1024
  shapeCasts_S1024_S1024x1 : S1024.ShapeCasts S1024x1
  broadcasts_S1024x1_S1024x768 : S1024x1.Broadcasts S1024x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  reduces_S1024x1024_S1024 : S1024x1024.Reduces [1] S1024
  broadcasts_S1024x1_S1024x1024 : S1024x1.Broadcasts S1024x1024
  inb_S1024x1024_S1024x1024_0_0 : ∀ a, (![0, 0] : Fin 2 → Nat) a + S1024x1024.size a ≤ S1024x1024.size a
  h_S1024x1024 : 0 < S1024x1024.numel
  shapeCasts_S32768x1024_S32x1024x1024 : S32768x1024.ShapeCasts S32x1024x1024
  dot_S1024x768_S768x1024_S1024x1024_1_0_0_1_n_n_wf : DotDims.WF S1024x768 S768x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768.size a ≤ S768.size a
  hwx0_1 : ∀ i : grid0.Coords, EltTy.bits .f32 = 32 ∨ (Rect.block (s := S768) S768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1024.size a ≤ S768x1024.size a
  hwx0_2 : ∀ i : grid0.Coords, EltTy.bits .bf16 = 32 ∨ (Rect.block (s := S768x1024) S768x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S32768x1024.size a
  hwx0_5 : ∀ i : grid0.Coords, EltTy.bits .f32 = 32 ∨ (Rect.block (s := S32768x1024) S1024x1024.size (cc0_transform_5 i) (hinb0_5 i)).WholeWords (EltTy.packing .f32)

variable [Facts₀]

def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x1024x768 : Shape := ⟨3, ![32, 1024, 768]⟩
abbrev S768 : Shape := ⟨1, ![768]⟩
abbrev S768x1024 : Shape := ⟨2, ![768, 1024]⟩
abbrev S1024 : Shape := ⟨1, ![1024]⟩
abbrev S_ : Shape := ⟨0, ![]⟩
abbrev S32x1024 : Shape := ⟨2, ![32, 1024]⟩
abbrev S32x1024x1 : Shape := ⟨3, ![32, 1024, 1]⟩
abbrev S1x1x768 : Shape := ⟨3, ![1, 1, 768]⟩
abbrev S32x1024x1024 : Shape := ⟨3, ![32, 1024, 1024]⟩
abbrev S1x1x1024 : Shape := ⟨3, ![1, 1, 1024]⟩

abbrev nBuf : Space → Nat
  | .hbm => 97
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S768, .f32⟩
  | .hbm, ⟨2, _⟩ => ⟨S768x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32x1024, .f32⟩
  | .hbm, ⟨7, _⟩ => ⟨S32x1024x1, .f32⟩
  | .hbm, ⟨8, _⟩ => ⟨S_, .f32⟩
  | .hbm, ⟨9, _⟩ => ⟨S32x1024x1, .f32⟩
  | .hbm, ⟨10, _⟩ => ⟨S32x1024x1, .f32⟩
  | .hbm, ⟨11, _⟩ => ⟨S_, .i32⟩
  | .hbm, ⟨12, _⟩ => ⟨S_, .f32⟩
  | .hbm, ⟨13, _⟩ => ⟨S32x1024, .f32⟩
  | .hbm, ⟨14, _⟩ => ⟨S32x1024x1, .f32⟩
  | .hbm, ⟨15, _⟩ => ⟨S_, .f32⟩
  | .hbm, ⟨16, _⟩ => ⟨S32x1024x1, .f32⟩
  | .hbm, ⟨17, _⟩ => ⟨S32x1024x1, .f32⟩
  | .hbm, ⟨18, _⟩ => ⟨S32x1024x768, .f32⟩
  | .hbm, ⟨19, _⟩ => ⟨S32x1024x768, .f32⟩
  | .hbm, ⟨20, _⟩ => ⟨S32x1024x768, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32x1024, .f32⟩
  | .hbm, ⟨26, _⟩ => ⟨S32x1024x1, .f32⟩
  | .hbm, ⟨27, _⟩ => ⟨S32x1024x1, .f32⟩
  | .hbm, ⟨28, _⟩ => ⟨S32x1024x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S32x1024x1, .f32⟩
  | .hbm, ⟨34, _⟩ => ⟨S32x1024x1, .f32⟩
  | .hbm, ⟨35, _⟩ => ⟨S32x1024x768, .f32⟩
  | .hbm, ⟨36, _⟩ => ⟨S32x1024x768, .f32⟩
  | .hbm, ⟨37, _⟩ => ⟨S_, .f32⟩
  | .hbm, ⟨38, _⟩ => ⟨S32x1024x1, .f32⟩
  | .hbm, ⟨39, _⟩ => ⟨S32x1024x1, .f32⟩
  | .hbm, ⟨40, _⟩ => ⟨S32x1024x1, .f32⟩
  | .hbm, ⟨41, _⟩ => ⟨S32x1024x768, .f32⟩
  | .hbm, ⟨42, _⟩ => ⟨S32x1024x768, .f32⟩
  | .hbm, ⟨43, _⟩ => ⟨S1x1x768, .f32⟩
  | .hbm, ⟨44, _⟩ => ⟨S32x1024x768, .f32⟩
  | .hbm, ⟨45, _⟩ => ⟨S32x1024x768, .f32⟩
  | .hbm, ⟨46, _⟩ => ⟨S_, .f32⟩
  | .hbm, ⟨47, _⟩ => ⟨S32x1024x768, .f32⟩
  | .hbm, ⟨48, _⟩ => ⟨S32x1024x768, .f32⟩
  | .hbm, ⟨49, _⟩ => ⟨S32x1024x1024, .f32⟩
  | .hbm, ⟨50, _⟩ => ⟨S1x1x1024, .f32⟩
  | .hbm, ⟨51, _⟩ => ⟨S32x1024x1024, .f32⟩
  | .hbm, ⟨52, _⟩ => ⟨S32x1024x1024, .f32⟩
  | .hbm, ⟨53, _⟩ => ⟨S_, .f32⟩
  | .hbm, ⟨54, _⟩ => ⟨S32x1024, .f32⟩
  | .hbm, ⟨55, _⟩ => ⟨S32x1024x1, .f32⟩
  | .hbm, ⟨56, _⟩ => ⟨S_, .f32⟩
  | .hbm, ⟨57, _⟩ => ⟨S32x1024x1, .f32⟩
  | .hbm, ⟨58, _⟩ => ⟨S32x1024x1, .f32⟩
  | .hbm, ⟨59, _⟩ => ⟨S_, .i32⟩
  | .hbm, ⟨60, _⟩ => ⟨S_, .f32⟩
  | .hbm, ⟨61, _⟩ => ⟨S32x1024, .f32⟩
  | .hbm, ⟨62, _⟩ => ⟨S32x1024x1, .f32⟩
  | .hbm, ⟨63, _⟩ => ⟨S_, .f32⟩
  | .hbm, ⟨64, _⟩ => ⟨S32x1024x1, .f32⟩
  | .hbm, ⟨65, _⟩ => ⟨S32x1024x1, .f32⟩
  | .hbm, ⟨66, _⟩ => ⟨S32x1024x1024, .f32⟩
  | .hbm, ⟨67, _⟩ => ⟨S32x1024x1024, .f32⟩
  | .hbm, ⟨68, _⟩ => ⟨S32x1024x1024, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S32x1024, .f32⟩
  | .hbm, ⟨74, _⟩ => ⟨S32x1024x1, .f32⟩
  | .hbm, ⟨75, _⟩ => ⟨S32x1024x1, .f32⟩
  | .hbm, ⟨76, _⟩ => ⟨S32x1024x1, .f32⟩
  | .hbm, ⟨77, _⟩ => ⟨S_, .f32⟩
  | .hbm, ⟨78, _⟩ => ⟨S_, .i1⟩
  | .hbm, ⟨79, _⟩ => ⟨S_, .f32⟩
  | .hbm, ⟨80, _⟩ => ⟨S_, .f32⟩
  | .hbm, ⟨81, _⟩ => ⟨S32x1024x1, .f32⟩
  | .hbm, ⟨82, _⟩ => ⟨S32x1024x1, .f32⟩
  | .hbm, ⟨83, _⟩ => ⟨S32x1024x1024, .f32⟩
  | .hbm, ⟨84, _⟩ => ⟨S32x1024x1024, .f32⟩
  | .hbm, ⟨85, _⟩ => ⟨S_, .f32⟩
  | .hbm, ⟨86, _⟩ => ⟨S32x1024x1, .f32⟩
  | .hbm, ⟨87, _⟩ => ⟨S32x1024x1, .f32⟩
  | .hbm, ⟨88, _⟩ => ⟨S32x1024x1, .f32⟩
  | .hbm, ⟨89, _⟩ => ⟨S32x1024x1024, .f32⟩
  | .hbm, ⟨90, _⟩ => ⟨S32x1024x1024, .f32⟩
  | .hbm, ⟨91, _⟩ => ⟨S1x1x1024, .f32⟩
  | .hbm, ⟨92, _⟩ => ⟨S32x1024x1024, .f32⟩
  | .hbm, ⟨93, _⟩ => ⟨S32x1024x1024, .f32⟩
  | .hbm, ⟨94, _⟩ => ⟨S_, .f32⟩
  | .hbm, ⟨95, _⟩ => ⟨S32x1024x1024, .f32⟩
  | .hbm, ⟨96, _⟩ => ⟨S32x1024x1024, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_c_5 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_cst_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_cst_1 : Ref sig .tc := ⟨.hbm, 70, rfl⟩
abbrev main_call1_v8 : Ref sig .tc := ⟨.hbm, 71, rfl⟩
abbrev main_call1_cst_2 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_cst_3 : Ref sig .tc := ⟨.hbm, 77, rfl⟩
abbrev main_call1_v13 : Ref sig .tc := ⟨.hbm, 78, rfl⟩
abbrev main_call1_cst_4 : Ref sig .tc := ⟨.hbm, 79, rfl⟩
abbrev main_call1_call0_v0 : Ref sig .tc := ⟨.hbm, 80, rfl⟩
abbrev main_call1_call0_v1 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_cst_6 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_cst_7 : Ref sig .tc := ⟨.hbm, 94, rfl⟩
abbrev main_v36 : Ref sig .tc := ⟨.hbm, 95, rfl⟩
abbrev main_v37 : Ref sig .tc := ⟨.hbm, 96, rfl⟩

abbrev nD : Nat := 1
abbrev τ : Topo := Topo.v7x

variable {F : FTy → Type} [FloatOps F]

class Facts₀ : Prop where
  reducesTo_S32x1024x768_S32x1024_d2 : S32x1024x768.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x768_0_1_2 : S32x1024x1.BroadcastsInDim S32x1024x768 (![0, 1, 2] : Fin 3 → Fin S32x1024x768.rank)
  bcast_S768_S1x1x768_2 : S768.BroadcastsInDim S1x1x768 (![2] : Fin 1 → Fin S1x1x768.rank)
  bcast_S1x1x768_S32x1024x768_0_1_2 : S1x1x768.BroadcastsInDim S32x1024x768 (![0, 1, 2] : Fin 3 → Fin S32x1024x768.rank)
  bcast_S_S32x1024x768 : S_.BroadcastsInDim S32x1024x768 (![] : Fin 0 → Fin S32x1024x768.rank)
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  reducesTo_S32x1024x1024_S32x1024_d2 : S32x1024x1024.ReducesTo [2] S32x1024
  bcast_S32x1024x1_S32x1024x1024_0_1_2 : S32x1024x1.BroadcastsInDim S32x1024x1024 (![0, 1, 2] : Fin 3 → Fin S32x1024x1024.rank)
  bcast_S_S32x1024x1024 : S_.BroadcastsInDim S32x1024x1024 (![] : Fin 0 → Fin S32x1024x1024.rank)
  dot_S32x1024x768_S768x1024_S32x1024x1024_2_0_01_1_n_n_wf : DotDims.WF S32x1024x768 S768x1024 S32x1024x1024 [2] [0] [0, 1] [1] [] []

variable [Facts₀]

def dot_S32x1024x768_S768x1024_S32x1024x1024_2_0_01_1_n_n : DotDims S32x1024x768 S768x1024 S32x1024x1024 where
  lhsContracting := [2]
  rhsContracting := [0]
  lhsNonContracting := [0, 1]
  rhsNonContracting := [1]
  lhsBatch := []
  rhsBatch := []
  wf := dot_S32x1024x768_S768x1024_S32x1024x1024_2_0_01_1_n_n_wf

class Facts : Prop extends Facts₀ where

variable [Facts]
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.Spec.lean ====
import Idealize.ShloMosaic.PureOps.Ideal
import Idealize.ShloMosaic.Lib.ValueIdx
import proofs.«408820_j90159953478038_3_alg».proof.Proof.LibRealSums

/-! # Patch embedding: LayerNorm over 768 features, a linear map to 1024 features, LayerNorm again

Both programs compute, for each of the 32 × 1024 rows `x` of the patches,

  `norm₁₀₂₄ (project (norm₇₆₈ x · γ_pre) W b) · γ_post`,

where `norm v = (v − mean v) · (var v + ε)^(−1/2)` and `project u = u · W + b`. They differ only in how the variance
of a row is taken: one reads it as the mean of the squares minus the square of the mean (one pass over the row),
the other as the mean of the squared deviations from the mean (two passes). Over real numbers the two are one
number, provided the divisor is the number of entries of the row; over the extended reals the identity needs the
entries to be real, which is what the certificate's precondition (every input finite) provides. -/

open scoped BigOperators

noncomputable section

namespace Cert.PatchEmbed

open Idealize.ShloMosaic Idealize.ShloMosaic.ValueIdx Idealize.ShloMosaic.RealSums

/-- The stabiliser both programs add to a variance before the inverse square root: the f32 nearest to 1e-5. -/
def eps : EReal := Ideal.ofBits .f32 0x3727C5AC#32
/-- The divisor of a mean over 768 entries, as both programs spell it: the f32 number 768. -/
def cnt768 : EReal := Ideal.ofBits .f32 0x44400000#32
/-- The divisor of a mean over 1024 entries: the f32 number 1024. -/
def cnt1024 : EReal := Ideal.ofBits .f32 0x44800000#32

/-- The mean of a row: its sum divided by the count. -/
def mean {n : ℕ} (cnt : EReal) (v : Fin n → EReal) : EReal := Ideal.div (∑ k, v k) cnt

/-- The variance of a row in one pass: the mean of the squares minus the square of the mean. -/
def varOnePass {n : ℕ} (cnt : EReal) (v : Fin n → EReal) : EReal :=
  Ideal.div (∑ k, v k * v k) cnt - mean cnt v * mean cnt v

/-- The variance of a row in two passes: the mean of the squared deviations from the mean. -/
def varTwoPass {n : ℕ} (cnt : EReal) (v : Fin n → EReal) : EReal :=
  Ideal.div (∑ k, (v k - mean cnt v) * (v k - mean cnt v)) cnt

/-- A row normalised with the one-pass variance and scaled entry by entry by `g`. -/
def normOnePass {n : ℕ} (cnt : EReal) (v g : Fin n → EReal) (j : Fin n) : EReal :=
  (v j - mean cnt v) * Ideal.rsqrt (varOnePass cnt v + eps) * g j

/-- A row normalised with the two-pass variance and scaled entry by entry by `g`. -/
def normTwoPass {n : ℕ} (cnt : EReal) (v g : Fin n → EReal) (j : Fin n) : EReal :=
  (v j - mean cnt v) * Ideal.rsqrt (varTwoPass cnt v + eps) * g j

/-- The linear map: a row of 768 entries against the 768 × 1024 weights, plus the bias. -/
def project (u : Fin 768 → EReal) (W : Fin 768 → Fin 1024 → EReal) (b : Fin 1024 → EReal) (d : Fin 1024) : EReal :=
  (∑ p, u p * W p d) + b d

abbrev SX : Shape := ⟨3, ![32, 1024, 768]⟩
abbrev SG1 : Shape := ⟨1, ![768]⟩
abbrev SW : Shape := ⟨2, ![768, 1024]⟩
abbrev SG2 : Shape := ⟨1, ![1024]⟩
abbrev SO : Shape := ⟨3, ![32, 1024, 1024]⟩

/-- The whole result with the one-pass variance, entry (a, n, d), of the five argument arrays. -/
def onePassAt (x : SX.Idx → EReal) (g1 : SG1.Idx → EReal) (W : SW.Idx → EReal) (b g2 : SG2.Idx → EReal)
    (a : Fin 32) (n : Fin 1024) (d : Fin 1024) : EReal :=
  normOnePass cnt1024
    (project (normOnePass cnt768 (fun p => x (ix3 a n p)) (fun p => g1 (ix1 p))) (fun p e => W (ix2 p e)) (fun e => b (ix1 e)))
    (fun e => g2 (ix1 e)) d

/-- The whole result with the two-pass variance, entry (a, n, d). -/
def twoPassAt (x : SX.Idx → EReal) (g1 : SG1.Idx → EReal) (W : SW.Idx → EReal) (b g2 : SG2.Idx → EReal)
    (a : Fin 32) (n : Fin 1024) (d : Fin 1024) : EReal :=
  normTwoPass cnt1024
    (project (normTwoPass cnt768 (fun p => x (ix3 a n p)) (fun p => g1 (ix1 p))) (fun p e => W (ix2 p e)) (fun e => b (ix1 e)))
    (fun e => g2 (ix1 e)) d

/-- The result array of the program that takes variances in one pass. -/
def onePassResult (x : SX.Idx → EReal) (g1 : SG1.Idx → EReal) (W : SW.Idx → EReal) (b g2 : SG2.Idx → EReal) :
    SO.Idx → EReal := fun i => onePassAt x g1 W b g2 (i 0) (i 1) (i 2)

/-- The result array of the program that takes variances in two passes. -/
def twoPassResult (x : SX.Idx → EReal) (g1 : SG1.Idx → EReal) (W : SW.Idx → EReal) (b g2 : SG2.Idx → EReal) :
    SO.Idx → EReal := fun i => twoPassAt x g1 W b g2 (i 0) (i 1) (i 2)

end Cert.PatchEmbed

end
-- ==== Proof.KerBody.lean ====
import proofs.«408820_j90159953478038_3_alg».proof.Proof.Gen.KernelIdeal.Frame
import proofs.«408820_j90159953478038_3_alg».proof.Proof.Spec
import Idealize.ShloMosaic.PureOps.Ideal.Laws
import Idealize.ShloMosaic.Lib.ValueIdx
import Idealize.ShloMosaic.Lib.ValueLayout

/-! # The body's result, entry by entry

The body works on one block of 1024 patch rows. It normalises each row over its 768 features (mean and one-pass
variance as sums along the row, kept as a column and spread back over the row), scales by γ_pre, multiplies by the
768 × 1024 weights, adds the bias, and normalises each of the 1024-long rows again, scaling by γ_post. Read at an entry
(r, d) every operation is either entrywise, a sum along row r, a column or a row spread over the block, or the matrix
product's sum over the 768 shared coordinates. This module reads the body's terms at an entry in that order and ends in
the specification's formula. -/

open scoped BigOperators

noncomputable section

namespace Cert.KernelIdeal.Hand

open Idealize.ShloMosaic Idealize.ShloMosaic.ValueIdx Cert.KernelIdeal Cert.KernelIdeal.Gen Cert.PatchEmbed

/-! ## Columns: a vector kept as an [a, 1] array, and such a column spread over [a, b] -/

section Columns
variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` laid as one row `[1, b]` and broadcast to `[a, b]` reads, at `(p, c)`, the vector at `c`. -/
theorem rowSpread_apply {a b : ℕ} (g : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ g h1) h2 (ix2 p c) = g (ix1 c) :=
  (broadcastTo_1b_ab_apply _ h2 p c).trans (shapeCast_a_1a_apply g h1 0 c)

end Columns

/-! ## Sums along a row -/

/-- The lane sum of a 1024 × 768 block at row `r`: the sum of that row's 768 entries. -/
theorem rowSum768 (v : FVec Ideal S1024x768 .f32) (hφ : FKind.Formats .f32)
    (hacc : (0x00000000#32 : BitVec 32) = 0x00000000#32) (r : Fin 1024) :
    multiReduction .add [1] S1024 v 0x00000000#32 reduces_S1024x768_S1024 hφ hacc (ix1 r)
      = ∑ k : Fin 768, v (ix2 r k) := by
  refine (Ideal.multiReduction_add_single v 0x00000000#32 reduces_S1024x768_S1024 hφ hacc (ix1 r)).trans ?_
  refine Finset.sum_congr rfl fun k _ => congrArg v ?_
  funext a
  match a with
  | ⟨0, _⟩ => rfl
  | ⟨1, _⟩ => rfl

/-- The lane sum of a 1024 × 1024 block at row `r`: the sum of that row's 1024 entries. -/
theorem rowSum1024 (v : FVec Ideal S1024x1024 .f32) (hφ : FKind.Formats .f32)
    (hacc : (0x00000000#32 : BitVec 32) = 0x00000000#32) (r : Fin 1024) :
    multiReduction .add [1] S1024 v 0x00000000#32 reduces_S1024x1024_S1024 hφ hacc (ix1 r)
      = ∑ k : Fin 1024, v (ix2 r k) := by
  refine (Ideal.multiReduction_add_single v 0x00000000#32 reduces_S1024x1024_S1024 hφ hacc (ix1 r)).trans ?_
  refine Finset.sum_congr rfl fun k _ => congrArg v ?_
  funext a
  match a with
  | ⟨0, _⟩ => rfl
  | ⟨1, _⟩ => rfl

/-! ## The matrix product at an entry

The product contracts the left operand's axis 1 with the right operand's axis 0. At the result's entry (r, d) and the
contraction's coordinate k the left operand is read at (r, k) and the right one at (k, d): one fact per operand axis. -/

/-- The left operand's row is the result's row. -/
theorem lhs_mm_0 (i : S1024x1024.Idx) (q : dot_S1024x768_S768x1024_S1024x1024_1_0_0_1_n_n.contr.Idx) :
    (dot_S1024x768_S768x1024_S1024x1024_1_0_0_1_n_n.lhsIdx i q 0).val = (i 0).val := by
  unfold DotDims.lhsIdx
  rw [dif_neg (show ¬(0 : Fin S1024x768.rank) ∈ dot_S1024x768_S768x1024_S1024x1024_1_0_0_1_n_n.lhsBatch by decide),
    dif_pos (show (0 : Fin S1024x768.rank) ∈ dot_S1024x768_S768x1024_S1024x1024_1_0_0_1_n_n.lhsNonContracting by decide)]
  rfl

/-- The left operand's column is the contraction's coordinate. -/
theorem lhs_mm_1 (i : S1024x1024.Idx) (q : dot_S1024x768_S768x1024_S1024x1024_1_0_0_1_n_n.contr.Idx) :
    (dot_S1024x768_S768x1024_S1024x1024_1_0_0_1_n_n.lhsIdx i q 1).val = (q ⟨0, by decide⟩).val :=
  dot_S1024x768_S768x1024_S1024x1024_1_0_0_1_n_n.lhsIdx_val_of_single rfl i q

/-- The right operand's row is the contraction's coordinate. -/
theorem rhs_mm_0 (i : S1024x1024.Idx) (q : dot_S1024x768_S768x1024_S1024x1024_1_0_0_1_n_n.contr.Idx) :
    (dot_S1024x768_S768x1024_S1024x1024_1_0_0_1_n_n.rhsIdx i q 0).val = (q ⟨0, by decide⟩).val :=
  dot_S1024x768_S768x1024_S1024x1024_1_0_0_1_n_n.rhsIdx_val_of_single rfl i q

/-- The right operand's column is the result's column. -/
theorem rhs_mm_1 (i : S1024x1024.Idx) (q : dot_S1024x768_S768x1024_S1024x1024_1_0_0_1_n_n.contr.Idx) :
    (dot_S1024x768_S768x1024_S1024x1024_1_0_0_1_n_n.rhsIdx i q 1).val = (i 1).val := by
  unfold DotDims.rhsIdx
  rw [dif_neg (show ¬(1 : Fin S768x1024.rank) ∈ dot_S1024x768_S768x1024_S1024x1024_1_0_0_1_n_n.rhsBatch by decide),
    dif_pos (show (1 : Fin S768x1024.rank) ∈ dot_S1024x768_S768x1024_S1024x1024_1_0_0_1_n_n.rhsNonContracting by decide)]
  rfl

/-- The matrix product into a zero accumulator, entry (r, d): the sum over the 768 shared coordinates. -/
theorem matmul_entry (A : FVec Ideal S1024x768 .bf16) (B : FVec Ideal S768x1024 .bf16) (r d : Fin 1024) :
    matmul dot_S1024x768_S768x1024_S1024x1024_1_0_0_1_n_n none A B (constant (F := Ideal) S1024x1024 .f32 0x00000000#32)
        (ix2 r d)
      = ∑ k : Fin 768, A (ix2 r k) * B (ix2 k d) := by
  simp only [matmul]
  rw [Ideal.matmul_constant_zero_apply,
    ← Equiv.sum_comp (contrEquiv1 dot_S1024x768_S768x1024_S1024x1024_1_0_0_1_n_n 768 rfl rfl).symm]
  refine Finset.sum_congr rfl fun k _ => ?_
  have hk := contrEquiv1_symm_val dot_S1024x768_S768x1024_S1024x1024_1_0_0_1_n_n 768 rfl rfl k
  have el : dot_S1024x768_S768x1024_S1024x1024_1_0_0_1_n_n.lhsIdx (ix2 r d)
      ((contrEquiv1 dot_S1024x768_S768x1024_S1024x1024_1_0_0_1_n_n 768 rfl rfl).symm k) = ix2 r k :=
    funext fun a => Fin.ext (by
      match a with
      | ⟨0, _⟩ => exact lhs_mm_0 _ _
      | ⟨1, _⟩ => exact (lhs_mm_1 _ _).trans hk)
  have er : dot_S1024x768_S768x1024_S1024x1024_1_0_0_1_n_n.rhsIdx (ix2 r d)
      ((contrEquiv1 dot_S1024x768_S768x1024_S1024x1024_1_0_0_1_n_n 768 rfl rfl).symm k) = ix2 k d :=
    funext fun a => Fin.ext (by
      match a with
      | ⟨0, _⟩ => exact (rhs_mm_0 _ _).trans hk
      | ⟨1, _⟩ => exact rhs_mm_1 _ _)
  rw [el, er]

/-! ## The body's values at an entry -/

/-- The inverse square root is entrywise. -/
theorem rsqrt_entry {s : Shape} {φ : FTy} (v : FVec Ideal s φ) (i : s.Idx) : rsqrt v i = Ideal.rsqrt (v i) := rfl

/-- The projected row: entry (r, d) of the normalised, scaled block times the weights, plus the bias. -/
theorem pay2_apply (x0 : Vec Ideal S1024x768 .f32) (x1 : Vec Ideal S768 .f32) (x2 : Vec Ideal S768x1024 .bf16)
    (x3 : Vec Ideal S1024 .f32) (r d : Fin 1024) :
    k0_pay2 (F := Ideal) x0 x1 x2 x3 (ix2 r d)
      = project (normOnePass cnt768 (fun p => x0 (ix2 r p)) (fun p => x1 (ix1 p))) (fun p e => x2 (ix2 p e))
          (fun e => x3 (ix1 e)) d := by
  unfold k0_pay2
  simp only [addf_apply, matmul_entry, rowSpread_apply, truncf_apply, mulf_apply, subf_apply, divf_apply,
    broadcastTo_a1_ab_apply, shapeCast_a_a1_apply, rowSum768 x0, rowSum768 (mulf x0 x0), shapeCast_self,
    broadcast_apply, rsqrt_entry]
  rfl

/-- The mean of the projected row r over its 1024 entries, kept as a column. -/
theorem pay3_apply (x0 : Vec Ideal S1024x768 .f32) (x1 : Vec Ideal S768 .f32) (x2 : Vec Ideal S768x1024 .bf16)
    (x3 : Vec Ideal S1024 .f32) (r : Fin 1024) (u : Fin 1) :
    k0_pay3 (F := Ideal) x0 x1 x2 x3 (ix2 r u)
      = mean cnt1024 (project (normOnePass cnt768 (fun p => x0 (ix2 r p)) (fun p => x1 (ix1 p)))
          (fun p e => x2 (ix2 p e)) (fun e => x3 (ix1 e))) := by
  unfold k0_pay3
  simp only [divf_apply, shapeCast_a_a1_apply, rowSum1024 (k0_pay2 (F := Ideal) x0 x1 x2 x3), broadcast_apply,
    pay2_apply]
  rfl

/-- The one-pass variance of the projected row r, kept as a column. -/
theorem pay4_apply (x0 : Vec Ideal S1024x768 .f32) (x1 : Vec Ideal S768 .f32) (x2 : Vec Ideal S768x1024 .bf16)
    (x3 : Vec Ideal S1024 .f32) (r : Fin 1024) (u : Fin 1) :
    k0_pay4 (F := Ideal) x0 x1 x2 x3 (ix2 r u)
      = varOnePass cnt1024 (project (normOnePass cnt768 (fun p => x0 (ix2 r p)) (fun p => x1 (ix1 p)))
          (fun p e => x2 (ix2 p e)) (fun e => x3 (ix1 e))) := by
  unfold k0_pay4
  simp only [subf_apply, divf_apply, mulf_apply, shapeCast_a_a1_apply,
    rowSum1024 (mulf (k0_pay2 (F := Ideal) x0 x1 x2 x3) (k0_pay2 (F := Ideal) x0 x1 x2 x3)), broadcast_apply,
    pay2_apply, pay3_apply]
  rfl

/-! ## The output block -/

/-- The offsets of a whole rank-2 block are zero. -/
theorem zeroOffsets2 : (![0, 0] : Fin 2 → Nat) = fun _ => 0 :=
  funext fun a => match a with | ⟨0, _⟩ => rfl | ⟨1, _⟩ => rfl

/-- The offsets of a whole rank-1 block are zero. -/
theorem zeroOffsets1 : (![0] : Fin 1 → Nat) = fun _ => 0 :=
  funext fun a => match a with | ⟨0, _⟩ => rfl

/-- What the body leaves in the output block, entry (r, d), of the five input blocks: row r of the patch block
    normalised over its 768 features (one-pass variance) and scaled, mapped by the weights plus the bias, normalised
    over the 1024 features and scaled. -/
theorem out_apply (x0 : Vec Ideal S1024x768 .f32) (x1 : Vec Ideal S768 .f32) (x2 : Vec Ideal S768x1024 .bf16)
    (x3 x4 : Vec Ideal S1024 .f32) (r : Fin 1024) (d : Fin 1024) :
    Gen.out0_5 x0 x1 x2 x3 x4 (ix2 r d)
      = normOnePass cnt1024
          (project (normOnePass cnt768 (fun p => x0 (ix2 r p)) (fun p => x1 (ix1 p))) (fun p e => x2 (ix2 p e))
            (fun e => x3 (ix1 e)))
          (fun e => x4 (ix1 e)) d := by
  unfold Gen.out0_5
  rw [View.canon_unit_zero zeroOffsets2]
  simp only [View.ld_unit_zero (S := S1024x768) zeroOffsets2, View.ld_unit_zero (S := S768) zeroOffsets1,
    View.ld_unit_zero (S := S768x1024) zeroOffsets2, View.ld_unit_zero (S := S1024) zeroOffsets1]
  unfold k0_pay1
  simp only [mulf_apply, subf_apply, addf_apply, broadcastTo_a1_ab_apply, rowSpread_apply, broadcast_apply,
    rsqrt_entry, pay2_apply, pay3_apply, pay4_apply]
  rfl

end Cert.KernelIdeal.Hand

end
-- ==== Proof.KerBlocks.lean ====
import proofs.«408820_j90159953478038_3_alg».proof.Proof.Gen.KernelIdeal.Frame
import proofs.«408820_j90159953478038_3_alg».proof.Proof.Spec
import proofs.«408820_j90159953478038_3_alg».proof.Proof.KerBody
import Idealize.ShloMosaic.Lib.Pipeline.Value
import Idealize.ShloMosaic.Lib.ValueIdx

/-! # From the blocks of 1024 rows to the whole flattened result

The region works on the patches flattened to 32768 rows of 768 features. Grid point `t` (of 32) reads rows
`1024 t … 1024 t + 1023` of them, and the two scales, the weights and the bias whole; it writes rows
`1024 t … 1024 t + 1023` of the flattened result, 32768 rows of 1024 features. Each result row depends on its own
patch row only, so the blocks the 32 points write back are the restrictions of ONE function of the arrays the region
finds, `rowsResult`; the blocks tile the result, so that function is what the output array holds after the region. -/

noncomputable section

namespace Cert.KernelIdeal.Hand

open Idealize.ShloMosaic Idealize.ShloMosaic.TcCoe Idealize.ShloMosaic.ValueIdx Idealize.SL.Sem Cert.KernelIdeal Cert.KernelIdeal.Gen Cert.PatchEmbed
open Idealize.ShloMosaic.Pipeline (Dat)

variable (m : (ℓ : Loc nD τ sig) → Buf (Elt Ideal) ℓ)

/-- Row `R` of the flattened patches (32768 rows of 768 features), normalised, mapped and normalised again: entry
    `d` of the 1024 features it ends with. -/
def rowAt (X : S32768x768.Idx → EReal) (g1 : SG1.Idx → EReal) (W : SW.Idx → EReal) (b g2 : SG2.Idx → EReal)
    (R : Fin 32768) (d : Fin 1024) : EReal :=
  normOnePass cnt1024
    (project (normOnePass cnt768 (fun p => X (ix2 R p)) (fun p => g1 (ix1 p))) (fun p e => W (ix2 p e)) (fun e => b (ix1 e)))
    (fun e => g2 (ix1 e)) d

/-- The flattened result, 32768 rows of 1024 features: what the region's output array holds. -/
def rowsResult (X : S32768x768.Idx → EReal) (g1 : SG1.Idx → EReal) (W : SW.Idx → EReal) (b g2 : SG2.Idx → EReal) :
    S32768x1024.Idx → EReal := fun i => rowAt X g1 W b g2 (i 0) (i 1)

theorem rowsResult_ix2 (X : S32768x768.Idx → EReal) (g1 : SG1.Idx → EReal) (W : SW.Idx → EReal) (b g2 : SG2.Idx → EReal)
    (R : Fin 32768) (d : Fin 1024) : rowsResult X g1 W b g2 (ix2 R d) = rowAt X g1 W b g2 R d := rfl

/-- An entry of a block of 1024 result rows, from blocks of the inputs that are: for the patches, the rows of the
    flattened array starting where the result's block starts; for the other four, the whole arrays. -/
theorem block_entry (x0 : Vec Ideal S1024x768 .f32) (x1 : Vec Ideal S768 .f32) (x2 : Vec Ideal S768x1024 .bf16)
    (x3 x4 : Vec Ideal S1024 .f32) (X : S32768x768.Idx → EReal) (g1 : SG1.Idx → EReal) (W : SW.Idx → EReal)
    (b g2 : SG2.Idx → EReal) (r d : Fin 1024) (R : Fin 32768)
    (h0 : ∀ p : Fin 768, x0 (ix2 r p) = X (ix2 R p)) (h1 : x1 = g1) (h2 : x2 = W) (h3 : x3 = b) (h4 : x4 = g2) :
    Gen.out0_5 x0 x1 x2 x3 x4 (ix2 r d) = rowsResult X g1 W b g2 (ix2 R d) := by
  subst h1 h2 h3 h4
  rw [out_apply, rowsResult_ix2]
  unfold rowAt
  simp only [h0]

/-! ## Where each window's block lies -/

/-- The printed index maps over the 32 grid points: point `t` takes block row `t` of the flattened patches and of the
    flattened result, and block 0 (the whole array) of the other four inputs. -/
theorem block_index : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 1) = 0
    ∧ win0_2.index t (0 : Fin 2) = 0 ∧ win0_2.index t (1 : Fin 2) = 0
    ∧ win0_3.index t (0 : Fin 1) = 0
    ∧ win0_4.index t (0 : Fin 1) = 0 :=
  (by decide +kernel : ∀ t : Fin grid0.N, _)

/-- The scale of the first normalisation is staged whole: its block at any point is the array. -/
theorem blk1_eq (c : Dev nD) (t : Fin cfg0.N) : (iblk m c 1 t : Vec Ideal S768 .f32) = V m c main_arg1 := by
  obtain ⟨-, -, -, -, e, -⟩ := block_index t
  funext y
  show V m c main_arg1 (((cfg0.win 1).blk t).view.emb y) = V m c main_arg1 y
  refine congrArg _ (funext fun a => Fin.ext ?_)
  match a with
  | ⟨0, _⟩ => show win0_1.index t (0 : Fin 1) * 768 + 1 * (y 0).val = (y 0).val; omega

/-- The weights are staged whole. -/
theorem blk2_eq (c : Dev nD) (t : Fin cfg0.N) : (iblk m c 2 t : Vec Ideal S768x1024 .bf16) = V m c main_v1 := by
  obtain ⟨-, -, -, -, -, e0, e1, -⟩ := block_index t
  funext y
  show V m c main_v1 (((cfg0.win 2).blk t).view.emb y) = V m c main_v1 y
  refine congrArg _ (funext fun a => Fin.ext ?_)
  match a with
  | ⟨0, _⟩ => show win0_2.index t (0 : Fin 2) * 768 + 1 * (y 0).val = (y 0).val; omega
  | ⟨1, _⟩ => show win0_2.index t (1 : Fin 2) * 1024 + 1 * (y 1).val = (y 1).val; omega

/-- The bias is staged whole. -/
theorem blk3_eq (c : Dev nD) (t : Fin cfg0.N) : (iblk m c 3 t : Vec Ideal S1024 .f32) = V m c main_arg3 := by
  obtain ⟨-, -, -, -, -, -, -, e, -⟩ := block_index t
  funext y
  show V m c main_arg3 (((cfg0.win 3).blk t).view.emb y) = V m c main_arg3 y
  refine congrArg _ (funext fun a => Fin.ext ?_)
  match a with
  | ⟨0, _⟩ => show win0_3.index t (0 : Fin 1) * 1024 + 1 * (y 0).val = (y 0).val; omega

/-- The scale of the second normalisation is staged whole. -/
theorem blk4_eq (c : Dev nD) (t : Fin cfg0.N) : (iblk m c 4 t : Vec Ideal S1024 .f32) = V m c main_arg4 := by
  obtain ⟨-, -, -, -, -, -, -, -, e⟩ := block_index t
  funext y
  show V m c main_arg4 (((cfg0.win 4).blk t).view.emb y) = V m c main_arg4 y
  refine congrArg _ (funext fun a => Fin.ext ?_)
  match a with
  | ⟨0, _⟩ => show win0_4.index t (0 : Fin 1) * 1024 + 1 * (y 0).val = (y 0).val; omega

/-- Row `r` of the patch block at point `t` is row `1024 t + r` of the flattened patches. -/
theorem blk0_row (c : Dev nD) (t : Fin cfg0.N) (r : Fin 1024) (R : Fin 32768) (hR : R.val = 1024 * t.val + r.val)
    (p : Fin 768) : (iblk m c 0 t : Vec Ideal S1024x768 .f32) (ix2 r p) = V m c main_v0 (ix2 R p) := by
  obtain ⟨e0, e1, -⟩ := block_index t
  show V m c main_v0 (((cfg0.win 0).blk t).view.emb (ix2 r p)) = V m c main_v0 (ix2 R p)
  refine congrArg _ (funext fun a => Fin.ext ?_)
  match a with
  | ⟨0, _⟩ => show win0_0.index t (0 : Fin 2) * 1024 + 1 * r.val = R.val; omega
  | ⟨1, _⟩ => show win0_0.index t (1 : Fin 2) * 768 + 1 * p.val = p.val; omega

/-! ## What a point writes back, and the array after the region -/

/-- Point `t` writes back rows `1024 t … 1024 t + 1023` of the flattened result. -/
theorem flushed_eq (c : Dev nD) (t : Fin cfg0.N) :
    (dats m 0 c).flushed 5 t = ((cfg0.win 5).blk t).view.read (Elt Ideal)
      (rowsResult (V m c main_v0) (V m c main_arg1) (V m c main_v1) (V m c main_arg3) (V m c main_arg4)) := by
  show (cfg0.win 5).cut (grid0.coords t) ((dats m 0 c).after 5 t) = _
  rw [after0_5]
  obtain ⟨-, -, e0, e1, -⟩ := block_index t
  funext j
  have hj0 : (j 0).val < 1024 := (j 0).isLt
  have hj1 : (j 1).val < 1024 := (j 1).isLt
  have ht : t.val < 32 := Nat.lt_of_lt_of_eq t.isLt N_0
  have hx : (cfg0.win 5).xinj (grid0.coords t) j = (ix2 (⟨(j 0).val, hj0⟩ : Fin 1024) (⟨(j 1).val, hj1⟩ : Fin 1024) : S1024x1024.Idx) :=
    funext fun a => by match a with | ⟨0, _⟩ => rfl | ⟨1, _⟩ => rfl
  have he : ((cfg0.win 5).blk t).view.emb j
      = (ix2 (⟨1024 * t.val + (j 0).val, by omega⟩ : Fin 32768) (⟨(j 1).val, hj1⟩ : Fin 1024) : S32768x1024.Idx) :=
    funext fun a => Fin.ext (by
      match a with
      | ⟨0, _⟩ => show win0_5.index t (0 : Fin 2) * 1024 + 1 * (j 0).val = 1024 * t.val + (j 0).val; omega
      | ⟨1, _⟩ => show win0_5.index t (1 : Fin 2) * 1024 + 1 * (j 1).val = (j 1).val; omega)
  show Gen.out0_5 (iblk m c 0 t) (iblk m c 1 t) (iblk m c 2 t) (iblk m c 3 t) (iblk m c 4 t) ((cfg0.win 5).xinj (grid0.coords t) j)
    = rowsResult (V m c main_v0) (V m c main_arg1) (V m c main_v1) (V m c main_arg3) (V m c main_arg4) (((cfg0.win 5).blk t).view.emb j)
  rw [hx, he]
  exact block_entry (iblk m c 0 t) (iblk m c 1 t) (iblk m c 2 t) (iblk m c 3 t) (iblk m c 4 t)
    (V m c main_v0) (V m c main_arg1) (V m c main_v1) (V m c main_arg3) (V m c main_arg4)
    ⟨(j 0).val, hj0⟩ ⟨(j 1).val, hj1⟩ ⟨1024 * t.val + (j 0).val, by omega⟩
    (fun p => blk0_row m c t _ _ rfl p) (blk1_eq m c t) (blk2_eq m c t) (blk3_eq m c t) (blk4_eq m c t)

/-- A row of the flattened result lies in point `t`'s block iff it is one of rows `1024 t … 1024 t + 1023`. -/
theorem mem_blk (t : Fin cfg0.N) (i : S32768x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v2).slice (win0_5.rect t)).set ↔ _
  rw [View.set_slice_whole, Rect.mem_set_unit]
  exact Iff.rfl

/-- Every entry of the flattened result is written back by some point: row `R` by point `R / 1024`. -/
theorem covered (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  have hN : cfg0.N = 32 := N_0
  let t : Fin cfg0.N := ⟨(i 0).val / 1024, by rw [hN]; omega⟩
  obtain ⟨-, -, e0, e1, -⟩ := block_index t
  have ht : t.val = (i 0).val / 1024 := rfl
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 1024 ≤ (i 1).val ∧ (i 1).val < win0_5.index t (1 : Fin 2) * 1024 + 1024
    omega

/-- So after the region the output array holds the flattened result of the arrays the region found. -/
theorem final (c : Dev nD) :
    (dats m 0 c).arrAt 5 cfg0.N
      = rowsResult (V m c main_v0) (V m c main_arg1) (V m c main_v1) (V m c main_arg3) (V m c main_arg4) :=
  (dats m 0 c).arrAt_eq_of_cover 5 _ (fun t _ => flushed_eq m c t) covered

end Cert.KernelIdeal.Hand

end
-- ==== Proof.KerRun.lean ====
import proofs.«408820_j90159953478038_3_alg».proof.Proof.Gen.KernelIdeal.Frame
import proofs.«408820_j90159953478038_3_alg».proof.Proof.Spec
import proofs.«408820_j90159953478038_3_alg».proof.Proof.KerBody
import proofs.«408820_j90159953478038_3_alg».proof.Proof.KerBlocks
import Idealize.ShloMosaic.Lib.Pipeline.Value
import Idealize.ShloMosaic.Lib.ValueIdx
import Idealize.ShloMosaic.Lib.Tactic

/-! # The idealized kernel's whole result

Around its one region the program only regroups rows: before it, the patches `32 × 1024 × 768` are flattened to
`32768 × 768` (row `(a, n)` becomes row `1024 a + n`) and the weights change float format, which is the identity on
extended reals; after it, the flattened result `32768 × 1024` is regrouped to `32 × 1024 × 1024`. The region leaves
the flattened result of the arrays it finds (`final`). So entry `(a, n, d)` of what the program returns is entry
`(1024 a + n, d)` of the flattened result, which is computed from row `(a, n)` of the patches: the one-pass result of
the five arguments. -/

noncomputable section

namespace Cert.KernelIdeal.Hand

open Idealize.ShloMosaic Idealize.ShloMosaic.TcCoe Idealize.ShloMosaic.ValueIdx Idealize.SL.Sem Cert.KernelIdeal Cert.KernelIdeal.Gen Cert.PatchEmbed
open Idealize.ShloMosaic.Pipeline (Dat)

variable (m : (ℓ : Loc nD τ sig) → Buf (Elt Ideal) ℓ)

/-! ## The arrays the region finds -/

/-- The region finds the patches flattened: row `1024 a + n` of the 32768 is row `(a, n)` of the argument. -/
theorem found_patches (c : Dev nD) (a : Fin 32) (n : Fin 1024) (R : Fin 32768) (hR : R.val = 1024 * a.val + n.val)
    (p : Fin 768) : V m c main_v0 (ix2 R p) = m ((c.tc : Thread nD τ).loc main_arg0) (ix3 a n p) := by
  have e : (V m c main_v0 : S32768x768.Idx → EReal)
      = shapeCast S32768x768 (m ((c.tc : Thread nD τ).loc main_arg0)) shapeCasts_S32x1024x768_S32768x768 := by
    show StableHlo.after hostOps0 (fun b => m (c, b)) (Proc.devRef .tc main_v0) = _
    after_results
    rfl
  rw [e]
  refine shapeCast_apply _ _ _ _ ?_
  show (S32x1024x768.rowMajor (ix3 a n p)).val = (S32768x768.rowMajor (ix2 R p)).val
  rw [Shape.rowMajor_val_two, Shape.rowMajor_val_three]
  show (a.val * 1024 + n.val) * 768 + p.val = R.val * 768 + p.val
  rw [hR]; ring

/-- The region finds the weights as launched: the change of float format on the way is the identity on extended reals. -/
theorem found_weights (c : Dev nD) : (V m c main_v1 : SW.Idx → EReal) = m ((c.tc : Thread nD τ).loc main_arg2) := by
  show StableHlo.after hostOps0 (fun b => m (c, b)) (Proc.devRef .tc main_v1) = _
  after_results
  rfl

/-! ## After the region -/

/-- What the program returns is the region's output array regrouped from 32768 rows to 32 × 1024 rows. -/
theorem returned (c : Dev nD) :
    (Pipeline.afterTail₀ cfgs (dats m) 0 (V0 m) [hostOps1] c main_v3 : S32x1024x1024.Idx → EReal)
      = shapeCast S32x1024x1024
          (rowsResult (V m c main_v0) (V m c main_arg1) (V m c main_v1) (V m c main_arg3) (V m c main_arg4))
          shapeCasts_S32768x1024_S32x1024x1024 := by
  have e : Pipeline.withArrays (cfgs 0).spec c (V0 m c) (fun w => (dats m 0 c).arrAt w (cfgs 0).N) (Proc.devRef .tc main_v2)
      = rowsResult (V m c main_v0) (V m c main_arg1) (V m c main_v1) (V m c main_arg3) (V m c main_arg4) :=
    (Pipeline.withArrays_arr spec0 launch0.win.arr_inj c _ _ 5).trans (final m c)
  unfold Pipeline.afterTail₀
  show StableHlo.after hostOps1 _ (Proc.devRef .tc main_v3) = _
  after_results
  rw [e]
  rfl

/-- Entry `(a, n, d)` of the regrouped result is entry `(1024 a + n, d)` of the flattened one, whose patch row is row
    `(a, n)` of the argument: the result is the one-pass result of the five arguments. -/
theorem regrouped (c : Dev nD) :
    shapeCast S32x1024x1024
        (rowsResult (V m c main_v0) (V m c main_arg1) (V m c main_v1) (V m c main_arg3) (V m c main_arg4))
        shapeCasts_S32768x1024_S32x1024x1024
      = onePassResult (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  funext i
  obtain ⟨a, n, d, rfl⟩ : ∃ (a : Fin 32) (n : Fin 1024) (d : Fin 1024), i = ix3 a n d := ⟨i 0, i 1, i 2, eq_ix3 i⟩
  have hR : 1024 * a.val + n.val < 32768 := by have := a.isLt; have := n.isLt; omega
  rw [shapeCast_apply _ _ (ix3 a n d) (ix2 (⟨1024 * a.val + n.val, hR⟩ : Fin 32768) d) (by
    show (S32768x1024.rowMajor (ix2 (⟨1024 * a.val + n.val, hR⟩ : Fin 32768) d)).val = (S32x1024x1024.rowMajor (ix3 a n d)).val
    rw [Shape.rowMajor_val_two, Shape.rowMajor_val_three]
    show (1024 * a.val + n.val) * 1024 + d.val = (a.val * 1024 + n.val) * 1024 + d.val
    ring)]
  rw [rowsResult_ix2]
  show _ = onePassAt _ _ _ _ _ a n d
  unfold rowAt onePassAt
  rw [found_weights, V_main_arg1, V_main_arg3, V_main_arg4]
  simp only [found_patches m c a n ⟨1024 * a.val + n.val, hR⟩ rfl]

/-! ## The run -/

/-- The idealized kernel's run: it terminates with the result array at the one-pass result of the five argument
    arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
          = onePassResult (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v3 (Pipeline.mem_restRefs_of main_v3 (by decide) (by decide))).trans
        ((returned m c).trans (regrouped m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (Gen.run_main m ρ)

end Cert.KernelIdeal.Hand

end
-- ==== Proof.RefTerm.lean ====
import proofs.«408820_j90159953478038_3_alg».proof.ReferenceIdeal

/-! # The reference's result as one term of its five arguments

The reference normalises each row of the patches over its 768 features, maps it to 1024 features by the weights and
the bias, and normalises again. Its stages, each the composition of the host operations that compute it, in the
program's order: the mean of a row (kept as a unit axis), the variance of a row (the sum of the squared deviations from the mean, divided by the count minus a
degrees-of-freedom argument, selected against a NaN pattern when that divisor is not positive), the normalised row scaled by `gamma` with the zero `beta` added, and the linear map. -/

noncomputable section

namespace Cert.ReferenceIdeal.Hand

open Idealize.ShloMosaic Cert.ReferenceIdeal
open Cert.ReferenceIdeal.Facts₀ Cert.ReferenceIdeal.Facts

variable {F : FTy → Type} [FloatOps F] [Facts]

/-- The mean over the 768 features of each row, the reduced axis kept with extent one. -/
def mean768 (x : FVec F S32x1024x768 .f32) : FVec F S32x1024x1 .f32 :=
  Host.divf
    (broadcastInDim S32x1024x1 ![0, 1] bcast_S32x1024_S32x1024x1_0_1
      (Host.reduceAdd x (constant S_ .f32 0x00000000#32) reducesTo_S32x1024x768_S32x1024_d2 h_S_))
    (broadcastInDim S32x1024x1 ![] bcast_S_S32x1024x1 (constant S_ .f32 0x44400000#32))

/-- The count the variance divides by: 768 minus the degrees-of-freedom argument. -/
def count768 (ddof : IVec S_ 32) : FVec F S_ .f32 :=
  subf (constant S_ .f32 0x44400000#32) (sitofp .f32 ddof)

/-- The variance over the 768 features of each row, the sum of squared deviations over the count, where the count is positive. -/
def var768 (x : FVec F S32x1024x768 .f32) (ddof : IVec S_ 32) : FVec F S32x1024x1 .f32 :=
  select
    (broadcastInDim S32x1024x1 ![] bcast_S_S32x1024x1 (cmpf .ogt (count768 (F := F) ddof) (constant S_ .f32 0x00000000#32)))
    (Host.divf
      (broadcastInDim S32x1024x1 ![0, 1] bcast_S32x1024_S32x1024x1_0_1
        (Host.reduceAdd
          (mulf (subf x (broadcastInDim S32x1024x768 ![0, 1, 2] bcast_S32x1024x1_S32x1024x768_0_1_2 (mean768 x)))
                (subf x (broadcastInDim S32x1024x768 ![0, 1, 2] bcast_S32x1024x1_S32x1024x768_0_1_2 (mean768 x))))
          (constant S_ .f32 0x00000000#32) reducesTo_S32x1024x768_S32x1024_d2 h_S_))
      (broadcastInDim S32x1024x1 ![] bcast_S_S32x1024x1 (count768 ddof)))
    (broadcastInDim S32x1024x1 ![] bcast_S_S32x1024x1 (id (constant S_ .f32 0x7FC00000#32)))

/-- The first LayerNorm: each row centred, scaled by the inverse root of its variance plus epsilon and by
    `gamma`, the zero `beta` added. -/
def norm768 (x : FVec F S32x1024x768 .f32) (g : FVec F S768 .f32) : FVec F S32x1024x768 .f32 :=
  addf
    (mulf
      (mulf (subf x (broadcastInDim S32x1024x768 ![0, 1, 2] bcast_S32x1024x1_S32x1024x768_0_1_2 (mean768 x)))
        (broadcastInDim S32x1024x768 ![0, 1, 2] bcast_S32x1024x1_S32x1024x768_0_1_2
          (Host.rsqrt (addf (var768 x (constantI S_ 32 0#32))
            (broadcastInDim S32x1024x1 ![] bcast_S_S32x1024x1 (constant S_ .f32 0x3727C5AC#32))))))
      (broadcastInDim S32x1024x768 ![0, 1, 2] bcast_S1x1x768_S32x1024x768_0_1_2
        (broadcastInDim S1x1x768 ![2] bcast_S768_S1x1x768_2 g)))
    (broadcastInDim S32x1024x768 ![] bcast_S_S32x1024x768 (constant S_ .f32 0x00000000#32))

/-- The linear map: every row against the weights, plus the bias. -/
def linear (u : FVec F S32x1024x768 .f32) (W : FVec F S768x1024 .f32) (b : FVec F S1024 .f32) : FVec F S32x1024x1024 .f32 :=
  addf (Host.dotGeneral dot_S32x1024x768_S768x1024_S32x1024x1024_2_0_01_1_n_n none u W)
    (broadcastInDim S32x1024x1024 ![0, 1, 2] bcast_S1x1x1024_S32x1024x1024_0_1_2
      (broadcastInDim S1x1x1024 ![2] bcast_S1024_S1x1x1024_2 b))

/-- The mean over the 1024 features of each row, the reduced axis kept with extent one. -/
def mean1024 (y : FVec F S32x1024x1024 .f32) : FVec F S32x1024x1 .f32 :=
  Host.divf
    (broadcastInDim S32x1024x1 ![0, 1] bcast_S32x1024_S32x1024x1_0_1
      (Host.reduceAdd y (constant S_ .f32 0x00000000#32) reducesTo_S32x1024x1024_S32x1024_d2 h_S_))
    (broadcastInDim S32x1024x1 ![] bcast_S_S32x1024x1 (constant S_ .f32 0x44800000#32))

/-- The count the second variance divides by: 1024 minus the degrees-of-freedom argument. -/
def count1024 (ddof : IVec S_ 32) : FVec F S_ .f32 :=
  subf (constant S_ .f32 0x44800000#32) (sitofp .f32 ddof)

/-- The variance over the 1024 features of each row, the sum of squared deviations over the count, where the count is positive. -/
def var1024 (y : FVec F S32x1024x1024 .f32) (ddof : IVec S_ 32) : FVec F S32x1024x1 .f32 :=
  select
    (broadcastInDim S32x1024x1 ![] bcast_S_S32x1024x1 (cmpf .ogt (count1024 (F := F) ddof) (constant S_ .f32 0x00000000#32)))
    (Host.divf
      (broadcastInDim S32x1024x1 ![0, 1] bcast_S32x1024_S32x1024x1_0_1
        (Host.reduceAdd
          (mulf (subf y (broadcastInDim S32x1024x1024 ![0, 1, 2] bcast_S32x1024x1_S32x1024x1024_0_1_2 (mean1024 y)))
                (subf y (broadcastInDim S32x1024x1024 ![0, 1, 2] bcast_S32x1024x1_S32x1024x1024_0_1_2 (mean1024 y))))
          (constant S_ .f32 0x00000000#32) reducesTo_S32x1024x1024_S32x1024_d2 h_S_))
      (broadcastInDim S32x1024x1 ![] bcast_S_S32x1024x1 (count1024 ddof)))
    (broadcastInDim S32x1024x1 ![] bcast_S_S32x1024x1 (id (constant S_ .f32 0x7FC00000#32)))

/-- The second LayerNorm, over the 1024 features. -/
def norm1024 (y : FVec F S32x1024x1024 .f32) (g : FVec F S1024 .f32) : FVec F S32x1024x1024 .f32 :=
  addf
    (mulf
      (mulf (subf y (broadcastInDim S32x1024x1024 ![0, 1, 2] bcast_S32x1024x1_S32x1024x1024_0_1_2 (mean1024 y)))
        (broadcastInDim S32x1024x1024 ![0, 1, 2] bcast_S32x1024x1_S32x1024x1024_0_1_2
          (Host.rsqrt (addf (var1024 y (constantI S_ 32 0#32))
            (broadcastInDim S32x1024x1 ![] bcast_S_S32x1024x1 (constant S_ .f32 0x3727C5AC#32))))))
      (broadcastInDim S32x1024x1024 ![0, 1, 2] bcast_S1x1x1024_S32x1024x1024_0_1_2
        (broadcastInDim S1x1x1024 ![2] bcast_S1024_S1x1x1024_2 g)))
    (broadcastInDim S32x1024x1024 ![] bcast_S_S32x1024x1024 (constant S_ .f32 0x00000000#32))

/-- The reference's result: normalise, project, normalise. -/
def result (x : FVec F S32x1024x768 .f32) (g1 : FVec F S768 .f32) (W : FVec F S768x1024 .f32) (b g2 : FVec F S1024 .f32) :
    FVec F S32x1024x1024 .f32 :=
  norm1024 (linear (norm768 x g1) W b) g2

end Cert.ReferenceIdeal.Hand

end
-- ==== Proof.RefRun.lean ====
import proofs.«408820_j90159953478038_3_alg».proof.Proof.Gen.ReferenceIdeal
import proofs.«408820_j90159953478038_3_alg».proof.Proof.RefTerm
import Idealize.ShloMosaic.Lib.StableHlo.Run

/-! # The reference's run

The reference program is a straight line of host operations: the two variance computations are functions the
program calls, and a call executes the callee's lines on the call's own buffers, so the whole program is ONE list of
ninety-two operations, the callees' lines standing where the calls stand. From that list the run is read back: every
weakly fair execution terminates, each buffer ends at the fold of the operations over the launch contents, and the
fold at the result buffer is the composed term `Hand.result` of the five arguments (mean, variance, normalisation,
linear map, mean, variance, normalisation), the arguments themselves never written. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's ninety-two operations in order. Seven compute the mean of each row over the 768 features; the
    first variance call is twenty-three (the mean again, the squared deviations, their sum over the count, the
    count's sign test, and the inner selection's three lines); twenty-five normalise, scale by `gamma`, apply the
    weights and the bias and take the mean over the 1024 features; the second variance call is twenty-three more;
    fourteen normalise again and scale. -/
abbrev ops : List (HloOp τ sig (Elt F)) :=
  [ -- the mean over the 768 features
    nullary main_cst (constant S_ .f32 0x00000000#32),
    binary main_arg0 main_cst main_v0 (fun x v => Host.reduceAdd x v reducesTo_S32x1024x768_S32x1024_d2 h_S_),
    unary main_v0 main_v1 (broadcastInDim S32x1024x1 ![0, 1] bcast_S32x1024_S32x1024x1_0_1),
    nullary main_cst_0 (constant S_ .f32 0x44400000#32),
    unary main_cst_0 main_v2 (broadcastInDim S32x1024x1 ![] bcast_S_S32x1024x1),
    binary main_v1 main_v2 main_v3 Host.divf,
    nullary main_c (constantI S_ 32 0#32),
    -- the variance of a row over its 768 features, the callee's lines over the call's own buffers
    TRef.nullary main_call0.cst (constant S_ .f32 0x00000000#32),
    TRef.binary (.of main_arg0) main_call0.cst main_call0.v0 (fun x v => Host.reduceAdd x v reducesTo_S32x1024x768_S32x1024_d2 h_S_),
    TRef.unary main_call0.v0 main_call0.v1 (broadcastInDim S32x1024x1 ![0, 1] bcast_S32x1024_S32x1024x1_0_1),
    TRef.nullary main_call0.cst_0 (constant S_ .f32 0x44400000#32),
    TRef.unary main_call0.cst_0 main_call0.v2 (broadcastInDim S32x1024x1 ![] bcast_S_S32x1024x1),
    TRef.binary main_call0.v1 main_call0.v2 main_call0.v3 Host.divf,
    TRef.unary main_call0.v3 main_call0.v4 (broadcastInDim S32x1024x768 ![0, 1, 2] bcast_S32x1024x1_S32x1024x768_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x44400000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S32x1024x768_S32x1024_d2 h_S_),
    TRef.unary main_call0.v9 main_call0.v10 (broadcastInDim S32x1024x1 ![0, 1] bcast_S32x1024_S32x1024x1_0_1),
    TRef.unary main_call0.v8 main_call0.v11 (broadcastInDim S32x1024x1 ![] bcast_S_S32x1024x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    -- the selection against the NaN pattern, the inner callee's three lines
    TRef.unary main_call0.cst_4 main_call0.call0.v0 id,
    TRef.unary main_call0.call0.v0 main_call0.call0.v1 (broadcastInDim S32x1024x1 ![] bcast_S_S32x1024x1),
    TRef.ternary main_call0.v13 main_call0.v12 main_call0.call0.v1 main_call0.call0.v2 (fun p a b => select (broadcastInDim S32x1024x1 ![] bcast_S_S32x1024x1 p) a b),
    -- the first normalisation, the scale, the zero shift
    unary main_v3 main_v5 (broadcastInDim S32x1024x768 ![0, 1, 2] bcast_S32x1024x1_S32x1024x768_0_1_2),
    binary main_arg0 main_v5 main_v6 subf,
    nullary main_cst_1 (constant S_ .f32 0x3727C5AC#32),
    unary main_cst_1 main_v7 (broadcastInDim S32x1024x1 ![] bcast_S_S32x1024x1),
    binary main_v4 main_v7 main_v8 addf,
    unary main_v8 main_v9 Host.rsqrt,
    unary main_v9 main_v10 (broadcastInDim S32x1024x768 ![0, 1, 2] bcast_S32x1024x1_S32x1024x768_0_1_2),
    binary main_v6 main_v10 main_v11 mulf,
    unary main_arg1 main_v12 (broadcastInDim S1x1x768 ![2] bcast_S768_S1x1x768_2),
    unary main_v12 main_v13 (broadcastInDim S32x1024x768 ![0, 1, 2] bcast_S1x1x768_S32x1024x768_0_1_2),
    binary main_v11 main_v13 main_v14 mulf,
    nullary main_cst_2 (constant S_ .f32 0x00000000#32),
    unary main_cst_2 main_v15 (broadcastInDim S32x1024x768 ![] bcast_S_S32x1024x768),
    binary main_v14 main_v15 main_v16 addf,
    -- the linear map
    binary main_v16 main_arg2 main_v17 (fun l r => Host.dotGeneral dot_S32x1024x768_S768x1024_S32x1024x1024_2_0_01_1_n_n none l r),
    unary main_arg3 main_v18 (broadcastInDim S1x1x1024 ![2] bcast_S1024_S1x1x1024_2),
    unary main_v18 main_v19 (broadcastInDim S32x1024x1024 ![0, 1, 2] bcast_S1x1x1024_S32x1024x1024_0_1_2),
    binary main_v17 main_v19 main_v20 addf,
    -- the mean over the 1024 features
    nullary main_cst_3 (constant S_ .f32 0x00000000#32),
    binary main_v20 main_cst_3 main_v21 (fun x v => Host.reduceAdd x v reducesTo_S32x1024x1024_S32x1024_d2 h_S_),
    unary main_v21 main_v22 (broadcastInDim S32x1024x1 ![0, 1] bcast_S32x1024_S32x1024x1_0_1),
    nullary main_cst_4 (constant S_ .f32 0x44800000#32),
    unary main_cst_4 main_v23 (broadcastInDim S32x1024x1 ![] bcast_S_S32x1024x1),
    binary main_v22 main_v23 main_v24 Host.divf,
    nullary main_c_5 (constantI S_ 32 0#32),
    -- the variance of a row over its 1024 features, the callee's lines over the call's own buffers
    TRef.nullary main_call1.cst (constant S_ .f32 0x00000000#32),
    TRef.binary (.of main_v20) main_call1.cst main_call1.v0 (fun x v => Host.reduceAdd x v reducesTo_S32x1024x1024_S32x1024_d2 h_S_),
    TRef.unary main_call1.v0 main_call1.v1 (broadcastInDim S32x1024x1 ![0, 1] bcast_S32x1024_S32x1024x1_0_1),
    TRef.nullary main_call1.cst_0 (constant S_ .f32 0x44800000#32),
    TRef.unary main_call1.cst_0 main_call1.v2 (broadcastInDim S32x1024x1 ![] bcast_S_S32x1024x1),
    TRef.binary main_call1.v1 main_call1.v2 main_call1.v3 Host.divf,
    TRef.unary main_call1.v3 main_call1.v4 (broadcastInDim S32x1024x1024 ![0, 1, 2] bcast_S32x1024x1_S32x1024x1024_0_1_2),
    TRef.binary (.of main_v20) main_call1.v4 main_call1.v5 subf,
    TRef.binary main_call1.v5 main_call1.v5 main_call1.v6 mulf,
    TRef.unary (.of main_c_5) main_call1.v7 (sitofp .f32),
    TRef.nullary main_call1.cst_1 (constant S_ .f32 0x44800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S32x1024x1024_S32x1024_d2 h_S_),
    TRef.unary main_call1.v9 main_call1.v10 (broadcastInDim S32x1024x1 ![0, 1] bcast_S32x1024_S32x1024x1_0_1),
    TRef.unary main_call1.v8 main_call1.v11 (broadcastInDim S32x1024x1 ![] bcast_S_S32x1024x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    -- the selection against the NaN pattern, the inner callee's three lines
    TRef.unary main_call1.cst_4 main_call1.call0.v0 id,
    TRef.unary main_call1.call0.v0 main_call1.call0.v1 (broadcastInDim S32x1024x1 ![] bcast_S_S32x1024x1),
    TRef.ternary main_call1.v13 main_call1.v12 main_call1.call0.v1 main_call1.call0.v2 (fun p a b => select (broadcastInDim S32x1024x1 ![] bcast_S_S32x1024x1 p) a b),
    -- the second normalisation, the scale, the zero shift
    unary main_v24 main_v26 (broadcastInDim S32x1024x1024 ![0, 1, 2] bcast_S32x1024x1_S32x1024x1024_0_1_2),
    binary main_v20 main_v26 main_v27 subf,
    nullary main_cst_6 (constant S_ .f32 0x3727C5AC#32),
    unary main_cst_6 main_v28 (broadcastInDim S32x1024x1 ![] bcast_S_S32x1024x1),
    binary main_v25 main_v28 main_v29 addf,
    unary main_v29 main_v30 Host.rsqrt,
    unary main_v30 main_v31 (broadcastInDim S32x1024x1024 ![0, 1, 2] bcast_S32x1024x1_S32x1024x1024_0_1_2),
    binary main_v27 main_v31 main_v32 mulf,
    unary main_arg4 main_v33 (broadcastInDim S1x1x1024 ![2] bcast_S1024_S1x1x1024_2),
    unary main_v33 main_v34 (broadcastInDim S32x1024x1024 ![0, 1, 2] bcast_S1x1x1024_S32x1024x1024_0_1_2),
    binary main_v32 main_v34 main_v35 mulf,
    nullary main_cst_7 (constant S_ .f32 0x00000000#32),
    unary main_cst_7 main_v36 (broadcastInDim S32x1024x1024 ![] bcast_S_S32x1024x1024),
    binary main_v35 main_v36 main_v37 addf ]

set_option maxRecDepth 8192 in
/-- The program is that straight line, by computation: sequencing grafts the rest of the program onto each step's
    continuation, so the program with the callees' definitions unfolded at their calls, and the list run step by
    step, are the same chain of ninety-two steps ending in the return. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only: one fact per operation, in the list's order. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub ..⟩

attribute [local irreducible] Host.reduceAdd Host.divf Host.rsqrt in
set_option maxRecDepth 16384 in
/-- The fold at the result buffer is the composed term: each operation's result at its own buffer is its function
    of its operands' contents, at any other buffer what was there; the reductions, the division and the inverse
    root stay folded (the contraction is a field of the float operations and has no body here): the equation never
    looks inside them. -/
theorem result_eq (V : Valuation τ sig (Elt F)) :
    after ops V (main_v37 : DevRef τ sig)
      = result (V (main_arg0 : DevRef τ sig)) (V (main_arg1 : DevRef τ sig)) (V (main_arg2 : DevRef τ sig))
          (V (main_arg3 : DevRef τ sig)) (V (main_arg4 : DevRef τ sig)) := by
  after_results_simp
  simp only [result, norm1024, linear, norm768, var1024, var768, mean1024, mean768, count1024, count768]
  rfl

/-- No operation writes an argument's buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- The reference's run: it terminates with the result array at the composed term of the five argument arrays, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v37).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.Hand

end
-- ==== Proof.Consts.lean ====
import Idealize.ShloMosaic.PureOps.Ideal
import proofs.«408820_j90159953478038_3_alg».proof.Proof.Spec

/-! # The float constants the two programs spell, as the numbers their patterns denote

The divisors of the two means are the real numbers 768 and 1024 — the number of entries of the rows they average,
which is what makes the two forms of the variance agree — and the stabiliser added to a variance is a positive real. -/

noncomputable section

namespace Cert.PatchEmbed

open Idealize.ShloMosaic

/-- The pattern of 768.0 denotes the real number 768. -/
theorem cnt768_eq : cnt768 = ((768 : ℝ) : EReal) := by
  unfold cnt768
  simp [Ideal.ofBits, Ideal.ieee, -EReal.coe_mul]; norm_num

/-- The pattern of 1024.0 denotes the real number 1024. -/
theorem cnt1024_eq : cnt1024 = ((1024 : ℝ) : EReal) := by
  unfold cnt1024
  simp [Ideal.ofBits, Ideal.ieee, -EReal.coe_mul]; norm_num

/-- The stabiliser denotes a positive real number (10995116 · 2⁻⁴⁰, the single-precision number nearest 10⁻⁵). -/
theorem eps_pos : ∃ e : ℝ, 0 < e ∧ eps = (e : EReal) := by
  refine ⟨10995116 * (2 : ℝ) ^ (-40 : ℤ), by positivity, ?_⟩
  unfold eps
  simp [Ideal.ofBits, Ideal.ieee, -EReal.coe_mul]

end Cert.PatchEmbed

end
-- ==== Proof.RefRead.lean ====
import proofs.«408820_j90159953478038_3_alg».proof.Proof.RefTerm
import proofs.«408820_j90159953478038_3_alg».proof.Proof.Gen.ReferenceIdeal
import proofs.«408820_j90159953478038_3_alg».proof.Proof.Spec
import proofs.«408820_j90159953478038_3_alg».proof.Proof.Consts
import Idealize.ShloMosaic.Lib.IdealHost
import Idealize.ShloMosaic.Lib.ValueIdx
import Idealize.ShloMosaic.Lib.Pipeline.Value
import Idealize.ShloMosaic.PureOps.Ideal.Laws

/-! # The reference's term, entry by entry, is the two-pass result

Each stage of the reference read at an index: a sum over the last axis is the sum of the row's entries (the zero it
starts from added), a mean is that sum over the count, the variance function's count `n − 0` is positive so its
select takes the quotient, a column of per-row numbers broadcast along the last axis reads the row's number, a vector
broadcast over the rows reads its entry, the product with the weights is the sum over the 768 contracted entries, and
adding a zero changes nothing. -/

open scoped BigOperators

noncomputable section

namespace Cert.ReferenceIdeal.Hand

open Idealize.ShloMosaic Idealize.ShloMosaic.ValueIdx Cert.ReferenceIdeal Cert.PatchEmbed

/-! ## Layout operations at an index -/

/-- Per-row numbers kept with a last axis of extent one. -/
theorem keep_apply {α : Type} (h : S32x1024.BroadcastsInDim S32x1024x1 ![0, 1]) (v : S32x1024.Idx → α)
    (a : Fin 32) (n : Fin 1024) (z : Fin 1) :
    broadcastInDim S32x1024x1 ![0, 1] h v (ix3 a n z) = v (ix2 a n) :=
  broadcastInDim_apply _ _ _ _ (ix2 a n) (fun d => match d with | ⟨0, _⟩ => rfl | ⟨1, _⟩ => rfl)

/-- A column of per-row numbers broadcast along 768 entries reads the row's number. -/
theorem along768_apply {α : Type} (h : S32x1024x1.BroadcastsInDim S32x1024x768 ![0, 1, 2]) (v : S32x1024x1.Idx → α)
    (a : Fin 32) (n : Fin 1024) (p : Fin 768) :
    broadcastInDim S32x1024x768 ![0, 1, 2] h v (ix3 a n p) = v (ix3 a n 0) :=
  broadcastInDim_apply _ _ _ _ (ix3 a n 0) (fun d => match d with | ⟨0, _⟩ => rfl | ⟨1, _⟩ => rfl | ⟨2, _⟩ => rfl)

/-- A column of per-row numbers broadcast along 1024 entries reads the row's number. -/
theorem along1024_apply {α : Type} (h : S32x1024x1.BroadcastsInDim S32x1024x1024 ![0, 1, 2]) (v : S32x1024x1.Idx → α)
    (a : Fin 32) (n : Fin 1024) (d : Fin 1024) :
    broadcastInDim S32x1024x1024 ![0, 1, 2] h v (ix3 a n d) = v (ix3 a n 0) :=
  broadcastInDim_apply _ _ _ _ (ix3 a n 0) (fun e => match e with | ⟨0, _⟩ => rfl | ⟨1, _⟩ => rfl | ⟨2, _⟩ => rfl)

/-- A vector of 768 entries broadcast over all rows reads its entry. -/
theorem rows768_apply {α : Type} (h1 : S768.BroadcastsInDim S1x1x768 ![2])
    (h2 : S1x1x768.BroadcastsInDim S32x1024x768 ![0, 1, 2]) (g : S768.Idx → α) (a : Fin 32) (n : Fin 1024) (p : Fin 768) :
    broadcastInDim S32x1024x768 ![0, 1, 2] h2 (broadcastInDim S1x1x768 ![2] h1 g) (ix3 a n p) = g (ix1 p) :=
  (broadcastInDim_apply _ _ _ _ (ix3 0 0 p) (fun d => match d with | ⟨0, _⟩ => rfl | ⟨1, _⟩ => rfl | ⟨2, _⟩ => rfl)).trans
    (broadcastInDim_apply _ _ _ _ (ix1 p) (fun d => match d with | ⟨0, _⟩ => rfl))

/-- A vector of 1024 entries broadcast over all rows reads its entry. -/
theorem rows1024_apply {α : Type} (h1 : S1024.BroadcastsInDim S1x1x1024 ![2])
    (h2 : S1x1x1024.BroadcastsInDim S32x1024x1024 ![0, 1, 2]) (g : S1024.Idx → α) (a : Fin 32) (n : Fin 1024) (d : Fin 1024) :
    broadcastInDim S32x1024x1024 ![0, 1, 2] h2 (broadcastInDim S1x1x1024 ![2] h1 g) (ix3 a n d) = g (ix1 d) :=
  (broadcastInDim_apply _ _ _ _ (ix3 0 0 d) (fun e => match e with | ⟨0, _⟩ => rfl | ⟨1, _⟩ => rfl | ⟨2, _⟩ => rfl)).trans
    (broadcastInDim_apply _ _ _ _ (ix1 d) (fun e => match e with | ⟨0, _⟩ => rfl))

/-- The host's inverse square root is taken entry by entry. -/
theorem hostRsqrt_apply {s : Shape} (v : FVec Ideal s .f32) (i : s.Idx) : Host.rsqrt v i = Ideal.rsqrt (v i) := rfl

/-! ## Row sums -/

/-- The sum over the last axis of a 32 × 1024 × 768 array, from zero, is the sum of the row's 768 entries. -/
theorem rowSum768 (h : S32x1024x768.ReducesTo [2] S32x1024) (hu : 0 < S_.numel) (x : FVec Ideal S32x1024x768 .f32)
    (a : Fin 32) (n : Fin 1024) :
    Host.reduceAdd x (constant (F := Ideal) S_ .f32 0x00000000#32) h hu (ix2 a n)
      = ∑ p : Fin 768, x (ix3 a n p) := by
  rw [hostReduceAdd_apply, Ideal.hostReduceAdd_single _ (by decide : S32x1024x768.Reduces [2] S32x1024),
    constant_apply, Ideal.ofBits_zero_f32, zero_add]
  exact Finset.sum_congr rfl fun p _ => congrArg x (funext fun d => Fin.ext (by
    match d with | ⟨0, _⟩ => rfl | ⟨1, _⟩ => rfl | ⟨2, _⟩ => rfl))

/-- The sum over the last axis of a 32 × 1024 × 1024 array, from zero, is the sum of the row's 1024 entries. -/
theorem rowSum1024 (h : S32x1024x1024.ReducesTo [2] S32x1024) (hu : 0 < S_.numel) (y : FVec Ideal S32x1024x1024 .f32)
    (a : Fin 32) (n : Fin 1024) :
    Host.reduceAdd y (constant (F := Ideal) S_ .f32 0x00000000#32) h hu (ix2 a n)
      = ∑ d : Fin 1024, y (ix3 a n d) := by
  rw [hostReduceAdd_apply, Ideal.hostReduceAdd_single _ (by decide : S32x1024x1024.Reduces [2] S32x1024),
    constant_apply, Ideal.ofBits_zero_f32, zero_add]
  exact Finset.sum_congr rfl fun p _ => congrArg y (funext fun d => Fin.ext (by
    match d with | ⟨0, _⟩ => rfl | ⟨1, _⟩ => rfl | ⟨2, _⟩ => rfl))

/-! ## Means -/

theorem mean768_apply (x : FVec Ideal S32x1024x768 .f32) (a : Fin 32) (n : Fin 1024) :
    mean768 (F := Ideal) x (ix3 a n 0) = mean cnt768 (fun p => x (ix3 a n p)) := by
  unfold mean768 mean
  rw [hostDivf_apply, keep_apply, rowSum768, broadcastInDim_scalar_apply, constant_apply]
  rfl

theorem mean1024_apply (y : FVec Ideal S32x1024x1024 .f32) (a : Fin 32) (n : Fin 1024) :
    mean1024 (F := Ideal) y (ix3 a n 0) = mean cnt1024 (fun d => y (ix3 a n d)) := by
  unfold mean1024 mean
  rw [hostDivf_apply, keep_apply, rowSum1024, broadcastInDim_scalar_apply, constant_apply]
  rfl

/-! ## The variance's count, with no degrees of freedom taken off, is the number of entries, and it is positive -/

theorem count768_zero : count768 (F := Ideal) (constantI S_ 32 0#32) ix0 = cnt768 := by
  unfold count768
  rw [subf_apply, constant_apply, sitofp_apply]
  show Ideal.ofBits .f32 0x44400000#32 - (((0#32 : BitVec 32).toInt : ℝ) : EReal) = cnt768
  simp [cnt768]

theorem count1024_zero : count1024 (F := Ideal) (constantI S_ 32 0#32) ix0 = cnt1024 := by
  unfold count1024
  rw [subf_apply, constant_apply, sitofp_apply]
  show Ideal.ofBits .f32 0x44800000#32 - (((0#32 : BitVec 32).toInt : ℝ) : EReal) = cnt1024
  simp [cnt1024]

theorem cnt768_pos : FloatOps.cmpf (F := Ideal) (φ := .f32) .ogt cnt768 (Ideal.ofBits .f32 0x00000000#32) = 1#1 := by
  rw [Ideal.cmpf_def, Ideal.ofBits_zero_f32, cnt768_eq]
  have h : (0 : EReal) < ((768 : ℝ) : EReal) := by exact_mod_cast (by norm_num : (0 : ℝ) < 768)
  simp [Ideal.cmp, h]

theorem cnt1024_pos : FloatOps.cmpf (F := Ideal) (φ := .f32) .ogt cnt1024 (Ideal.ofBits .f32 0x00000000#32) = 1#1 := by
  rw [Ideal.cmpf_def, Ideal.ofBits_zero_f32, cnt1024_eq]
  have h : (0 : EReal) < ((1024 : ℝ) : EReal) := by exact_mod_cast (by norm_num : (0 : ℝ) < 1024)
  simp [Ideal.cmp, h]

/-! ## Variances -/

theorem var768_apply (x : FVec Ideal S32x1024x768 .f32) (a : Fin 32) (n : Fin 1024) :
    var768 (F := Ideal) x (constantI S_ 32 0#32) (ix3 a n 0) = varTwoPass cnt768 (fun p => x (ix3 a n p)) := by
  unfold var768 varTwoPass
  rw [select_apply, broadcastInDim_scalar_apply, cmpf_apply, count768_zero, constant_apply, cnt768_pos, select_one,
    hostDivf_apply, keep_apply, rowSum768, broadcastInDim_scalar_apply, count768_zero]
  refine congrArg (Ideal.div · cnt768) (Finset.sum_congr rfl fun p _ => ?_)
  rw [mulf_apply, subf_apply, along768_apply, mean768_apply]

theorem var1024_apply (y : FVec Ideal S32x1024x1024 .f32) (a : Fin 32) (n : Fin 1024) :
    var1024 (F := Ideal) y (constantI S_ 32 0#32) (ix3 a n 0) = varTwoPass cnt1024 (fun d => y (ix3 a n d)) := by
  unfold var1024 varTwoPass
  rw [select_apply, broadcastInDim_scalar_apply, cmpf_apply, count1024_zero, constant_apply, cnt1024_pos, select_one,
    hostDivf_apply, keep_apply, rowSum1024, broadcastInDim_scalar_apply, count1024_zero]
  refine congrArg (Ideal.div · cnt1024) (Finset.sum_congr rfl fun p _ => ?_)
  rw [mulf_apply, subf_apply, along1024_apply, mean1024_apply]

/-! ## The two normalisations -/

theorem norm768_apply (x : FVec Ideal S32x1024x768 .f32) (g : FVec Ideal S768 .f32) (a : Fin 32) (n : Fin 1024) (p : Fin 768) :
    norm768 (F := Ideal) x g (ix3 a n p)
      = normTwoPass cnt768 (fun q => x (ix3 a n q)) (fun q => g (ix1 q)) p := by
  unfold norm768 normTwoPass
  rw [addf_apply, mulf_apply, mulf_apply, subf_apply, along768_apply, mean768_apply, along768_apply, hostRsqrt_apply,
    addf_apply, var768_apply, broadcastInDim_scalar_apply, constant_apply, rows768_apply, broadcastInDim_scalar_apply,
    constant_apply, Ideal.ofBits_zero_f32, add_zero]
  rfl

theorem norm1024_apply (y : FVec Ideal S32x1024x1024 .f32) (g : FVec Ideal S1024 .f32) (a : Fin 32) (n : Fin 1024) (d : Fin 1024) :
    norm1024 (F := Ideal) y g (ix3 a n d)
      = normTwoPass cnt1024 (fun e => y (ix3 a n e)) (fun e => g (ix1 e)) d := by
  unfold norm1024 normTwoPass
  rw [addf_apply, mulf_apply, mulf_apply, subf_apply, along1024_apply, mean1024_apply, along1024_apply, hostRsqrt_apply,
    addf_apply, var1024_apply, broadcastInDim_scalar_apply, constant_apply, rows1024_apply, broadcastInDim_scalar_apply,
    constant_apply, Ideal.ofBits_zero_f32, add_zero]
  rfl

/-! ## The linear map: the product with the weights contracts the 768 entries of a row -/

theorem lhs_0 (i : S32x1024x1024.Idx) (q : dot_S32x1024x768_S768x1024_S32x1024x1024_2_0_01_1_n_n.contr.Idx) :
    (dot_S32x1024x768_S768x1024_S32x1024x1024_2_0_01_1_n_n.lhsIdx i q 0).val = (i 0).val := by
  unfold DotDims.lhsIdx
  rw [dif_neg (show ¬(0 : Fin S32x1024x768.rank) ∈ dot_S32x1024x768_S768x1024_S32x1024x1024_2_0_01_1_n_n.lhsBatch by decide),
    dif_pos (show (0 : Fin S32x1024x768.rank) ∈ dot_S32x1024x768_S768x1024_S32x1024x1024_2_0_01_1_n_n.lhsNonContracting by decide)]
  rfl

theorem lhs_1 (i : S32x1024x1024.Idx) (q : dot_S32x1024x768_S768x1024_S32x1024x1024_2_0_01_1_n_n.contr.Idx) :
    (dot_S32x1024x768_S768x1024_S32x1024x1024_2_0_01_1_n_n.lhsIdx i q 1).val = (i 1).val := by
  unfold DotDims.lhsIdx
  rw [dif_neg (show ¬(1 : Fin S32x1024x768.rank) ∈ dot_S32x1024x768_S768x1024_S32x1024x1024_2_0_01_1_n_n.lhsBatch by decide),
    dif_pos (show (1 : Fin S32x1024x768.rank) ∈ dot_S32x1024x768_S768x1024_S32x1024x1024_2_0_01_1_n_n.lhsNonContracting by decide)]
  rfl

theorem lhs_2 (i : S32x1024x1024.Idx) (q : dot_S32x1024x768_S768x1024_S32x1024x1024_2_0_01_1_n_n.contr.Idx) :
    (dot_S32x1024x768_S768x1024_S32x1024x1024_2_0_01_1_n_n.lhsIdx i q 2).val = (q ⟨0, by decide⟩).val :=
  dot_S32x1024x768_S768x1024_S32x1024x1024_2_0_01_1_n_n.lhsIdx_val_of_single rfl i q

theorem rhs_0 (i : S32x1024x1024.Idx) (q : dot_S32x1024x768_S768x1024_S32x1024x1024_2_0_01_1_n_n.contr.Idx) :
    (dot_S32x1024x768_S768x1024_S32x1024x1024_2_0_01_1_n_n.rhsIdx i q 0).val = (q ⟨0, by decide⟩).val :=
  dot_S32x1024x768_S768x1024_S32x1024x1024_2_0_01_1_n_n.rhsIdx_val_of_single rfl i q

theorem rhs_1 (i : S32x1024x1024.Idx) (q : dot_S32x1024x768_S768x1024_S32x1024x1024_2_0_01_1_n_n.contr.Idx) :
    (dot_S32x1024x768_S768x1024_S32x1024x1024_2_0_01_1_n_n.rhsIdx i q 1).val = (i 2).val := by
  unfold DotDims.rhsIdx
  rw [dif_neg (show ¬(1 : Fin S768x1024.rank) ∈ dot_S32x1024x768_S768x1024_S32x1024x1024_2_0_01_1_n_n.rhsBatch by decide),
    dif_pos (show (1 : Fin S768x1024.rank) ∈ dot_S32x1024x768_S768x1024_S32x1024x1024_2_0_01_1_n_n.rhsNonContracting by decide)]
  rfl

theorem linear_apply (u : FVec Ideal S32x1024x768 .f32) (W : FVec Ideal S768x1024 .f32) (b : FVec Ideal S1024 .f32)
    (a : Fin 32) (n : Fin 1024) (d : Fin 1024) :
    linear (F := Ideal) u W b (ix3 a n d)
      = project (fun p => u (ix3 a n p)) (fun p e => W (ix2 p e)) (fun e => b (ix1 e)) d := by
  unfold linear project
  rw [addf_apply, rows1024_apply]
  refine congrArg (· + b (ix1 d)) ?_
  simp only [Host.dotGeneral]
  rw [Ideal.dotGeneral_apply, ← Equiv.sum_comp (ValueIdx.contrEquiv1 dot_S32x1024x768_S768x1024_S32x1024x1024_2_0_01_1_n_n 768 rfl rfl).symm]
  refine Finset.sum_congr rfl fun k _ => ?_
  have hk := ValueIdx.contrEquiv1_symm_val dot_S32x1024x768_S768x1024_S32x1024x1024_2_0_01_1_n_n 768 rfl rfl k
  have el : dot_S32x1024x768_S768x1024_S32x1024x1024_2_0_01_1_n_n.lhsIdx (ix3 a n d) ((ValueIdx.contrEquiv1 dot_S32x1024x768_S768x1024_S32x1024x1024_2_0_01_1_n_n 768 rfl rfl).symm k) = ix3 a n k :=
    funext fun c => Fin.ext (by
      match c with
      | ⟨0, _⟩ => exact lhs_0 _ _
      | ⟨1, _⟩ => exact lhs_1 _ _
      | ⟨2, _⟩ => exact (lhs_2 _ _).trans hk)
  have er : dot_S32x1024x768_S768x1024_S32x1024x1024_2_0_01_1_n_n.rhsIdx (ix3 a n d) ((ValueIdx.contrEquiv1 dot_S32x1024x768_S768x1024_S32x1024x1024_2_0_01_1_n_n 768 rfl rfl).symm k) = ix2 k d :=
    funext fun c => Fin.ext (by
      match c with
      | ⟨0, _⟩ => exact (rhs_0 _ _).trans hk
      | ⟨1, _⟩ => exact rhs_1 _ _)
  rw [el, er]

/-! ## The whole result -/

/-- The reference's term is the two-pass result of its five arguments. -/
theorem result_twoPass (x : FVec Ideal S32x1024x768 .f32) (g1 : FVec Ideal S768 .f32) (W : FVec Ideal S768x1024 .f32)
    (b g2 : FVec Ideal S1024 .f32) :
    result (F := Ideal) x g1 W b g2 = twoPassResult x g1 W b g2 := by
  funext i
  obtain ⟨a, n, d, rfl⟩ : ∃ (a : Fin 32) (n : Fin 1024) (d : Fin 1024), i = ix3 a n d := ⟨i 0, i 1, i 2, eq_ix3 i⟩
  show norm1024 (linear (norm768 x g1) W b) g2 (ix3 a n d) = twoPassAt x g1 W b g2 a n d
  rw [norm1024_apply]
  unfold twoPassAt
  refine congrArg (fun v => normTwoPass cnt1024 v (fun e => g2 (ix1 e)) d) (funext fun e => ?_)
  rw [linear_apply]
  refine congrArg (fun v => project v (fun p e => W (ix2 p e)) (fun e => b (ix1 e)) e) (funext fun p => ?_)
  rw [norm768_apply]

end Cert.ReferenceIdeal.Hand

end
-- ==== Proof.Finite.lean ====
import proofs.«408820_j90159953478038_3_alg».proof.Pre_finite_inputs
import proofs.«408820_j90159953478038_3_alg».proof.Proof.Gen.Pre_finite_inputs
import proofs.«408820_j90159953478038_3_alg».proof.Proof.LibRealSums
import Idealize.ShloMosaic.Lib.ReduceAll
import Idealize.ShloMosaic.Lib.ValueIdx
import Idealize.ShloMosaic.PureOps.Ideal.Laws

/-! # The precondition: every entry of every input is a real number

The precondition is the conjunction, over the five inputs, of "every entry's absolute value is below +∞". An extended
real whose absolute value `max x (−x)` is below +∞ is neither infinity, so it is a real number. -/

noncomputable section

namespace Cert.PatchEmbed

open Idealize.ShloMosaic Idealize.ShloMosaic.RealSums Cert.Pre_finite_inputs

/-- The pattern 0x7F800000 denotes +∞. -/
theorem ofBits_inf : Ideal.ofBits .f32 0x7F800000#32 = ⊤ := by
  simp [Ideal.ofBits, Ideal.ieee]

/-- An extended real whose absolute value compares below +∞ is a real number. -/
theorem isReal_of_abs_lt_inf (x : EReal)
    (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => simp at hlt
  | top => simp at hlt
  | coe r => exact ⟨r, rfl⟩

instance : Subsingleton S_.Idx := ⟨fun a b => funext fun d => d.elim0⟩

/-- Under the precondition every entry of each of the five inputs is a real number. -/
theorem inputs_real (a0 : FVec Ideal S32x1024x768 .f32) (a1 : FVec Ideal S768 .f32) (a2 : FVec Ideal S768x1024 .f32)
    (a3 a4 : FVec Ideal S1024 .f32)
    (h : Cert.Pre_finite_inputs.fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  refine ⟨fun i => ?_, fun i => ?_, fun i => ?_, fun i => ?_, fun i => ?_⟩
  · exact isReal_of_abs_lt_inf _ (Host.reduce_andi_all _ _ _ _ _ h0' i)
  · exact isReal_of_abs_lt_inf _ (Host.reduce_andi_all _ _ _ _ _ h1 i)
  · exact isReal_of_abs_lt_inf _ (Host.reduce_andi_all _ _ _ _ _ h2 i)
  · exact isReal_of_abs_lt_inf _ (Host.reduce_andi_all _ _ _ _ _ h3 i)
  · exact isReal_of_abs_lt_inf _ (Host.reduce_andi_all _ _ _ _ _ h4 i)

end Cert.PatchEmbed

end
-- ==== Proof.Variance.lean ====
import proofs.«408820_j90159953478038_3_alg».proof.Proof.Spec
import proofs.«408820_j90159953478038_3_alg».proof.Proof.LibRealSums
import Mathlib.Tactic.Ring
import Mathlib.Tactic.FieldSimp
import Mathlib.Tactic.Positivity
import Mathlib.Tactic.Linarith

/-! # The two forms of the variance agree on rows of real numbers

For a row `f` of `n` real numbers with sum `S` and mean `μ = S / n`,

  `∑ (f k − μ)² = ∑ f k² − 2 μ S + n μ² = ∑ f k² − n μ²`,

so the mean of the squared deviations is the mean of the squares minus the square of the mean — provided the divisor of
the means is the number of entries. On the extended reals the same holds for rows whose entries are real numbers, and a
normalised row of reals scaled by reals is again a row of reals, as is its image under the linear map; so the whole
result computed with one-pass variances is the whole result computed with two-pass variances, on real inputs. -/

open scoped BigOperators

noncomputable section

namespace Cert.PatchEmbed

open Idealize.ShloMosaic Idealize.ShloMosaic.RealSums

/-- Over the reals: the mean of the squared deviations from the mean is the mean of the squares minus the square of
    the mean, the divisor being the number of entries. Means are written as products with the reciprocal `1 / n`. -/
theorem real_variance {n : ℕ} (hn : (n : ℝ) ≠ 0) (f : Fin n → ℝ) :
    (∑ k, (f k - (∑ k, f k) * (1 / (n : ℝ))) * (f k - (∑ k, f k) * (1 / (n : ℝ)))) * (1 / (n : ℝ))
      = (∑ k, f k * f k) * (1 / (n : ℝ)) - (∑ k, f k) * (1 / (n : ℝ)) * ((∑ k, f k) * (1 / (n : ℝ))) := by
  generalize hS : (∑ k, f k) = S
  have hexp : ∀ k, (f k - S * (1 / (n : ℝ))) * (f k - S * (1 / (n : ℝ)))
      = f k * f k - 2 * (S * (1 / (n : ℝ))) * f k + S * (1 / (n : ℝ)) * (S * (1 / (n : ℝ))) := fun k => by ring
  simp only [hexp, Finset.sum_add_distrib, Finset.sum_sub_distrib, ← Finset.mul_sum, Finset.sum_const,
    Finset.card_univ, Fintype.card_fin, nsmul_eq_mul, hS]
  field_simp
  ring

/-- A difference of real numbers is a real number. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The inverse square root of a positive real number is a real number. -/
theorem IsReal.rsqrt_of_pos {r : ℝ} (h : 0 < r) : IsReal (Ideal.rsqrt (r : EReal)) := by
  rw [Ideal.rsqrt_coe, if_neg (not_lt.mpr h.le), if_neg h.ne']
  exact ⟨_, rfl⟩

section rows

variable {n : ℕ} (N : ℝ) (hN : N ≠ 0)

include hN in
/-- The mean of a row of reals, as a real. -/
theorem mean_coe (f : Fin n → ℝ) :
    mean ((N : ℝ) : EReal) (fun k => (f k : EReal)) = (((∑ k, f k) * (1 / N) : ℝ) : EReal) := by
  unfold mean
  rw [Ideal.div_coe hN, ← coe_sum, ← EReal.coe_mul]

include hN in
/-- The two-pass variance of a row of reals, as a real. -/
theorem varTwoPass_coe (f : Fin n → ℝ) :
    varTwoPass ((N : ℝ) : EReal) (fun k => (f k : EReal))
      = (((∑ k, (f k - (∑ k, f k) * (1 / N)) * (f k - (∑ k, f k) * (1 / N))) * (1 / N) : ℝ) : EReal) := by
  unfold varTwoPass
  rw [mean_coe N hN, Ideal.div_coe hN]
  simp only [← EReal.coe_sub, ← EReal.coe_mul, ← coe_sum]

include hN in
/-- The one-pass variance of a row of reals, as a real. -/
theorem varOnePass_coe (f : Fin n → ℝ) :
    varOnePass ((N : ℝ) : EReal) (fun k => (f k : EReal))
      = (((∑ k, f k * f k) * (1 / N) - (∑ k, f k) * (1 / N) * ((∑ k, f k) * (1 / N)) : ℝ) : EReal) := by
  unfold varOnePass
  rw [mean_coe N hN, Ideal.div_coe hN]
  simp only [← EReal.coe_sub, ← EReal.coe_mul, ← coe_sum]

end rows

/-- On a row of `n` real numbers, with the divisor the number `n`, the two forms of the variance are one number. -/
theorem varOnePass_eq_varTwoPass {n : ℕ} (hn : (n : ℝ) ≠ 0) (v : Fin n → EReal) (hv : ∀ k, IsReal (v k)) :
    varOnePass (((n : ℝ)) : EReal) v = varTwoPass (((n : ℝ)) : EReal) v := by
  choose f hf using hv
  obtain rfl : v = fun k => (f k : EReal) := funext hf
  rw [varOnePass_coe (n : ℝ) hn, varTwoPass_coe (n : ℝ) hn, real_variance hn]

/-- So the two normalisations of such a row are one row. -/
theorem normOnePass_eq_normTwoPass {n : ℕ} (hn : (n : ℝ) ≠ 0) (v g : Fin n → EReal) (hv : ∀ k, IsReal (v k)) :
    normOnePass (((n : ℝ)) : EReal) v g = normTwoPass (((n : ℝ)) : EReal) v g := by
  funext j
  unfold normOnePass normTwoPass
  rw [varOnePass_eq_varTwoPass hn v hv]

/-- A row of reals normalised (two-pass variance, a positive real stabiliser) and scaled by reals is a row of reals:
    the variance is a non-negative real, so the inverse square root is taken of a positive real. -/
theorem normTwoPass_isReal {n : ℕ} (N : ℝ) (hN : 0 < N) (v g : Fin n → EReal) (hv : ∀ k, IsReal (v k))
    (hg : ∀ k, IsReal (g k)) {e : ℝ} (he : 0 < e) (heps : eps = (e : EReal)) (j : Fin n) :
    IsReal (normTwoPass ((N : ℝ) : EReal) v g j) := by
  choose f hf using hv
  obtain rfl : v = fun k => (f k : EReal) := funext hf
  unfold normTwoPass
  rw [varTwoPass_coe N hN.ne', mean_coe N hN.ne', heps, ← EReal.coe_add]
  refine ((IsReal.sub (IsReal.coe _) (IsReal.coe _)).mul (IsReal.rsqrt_of_pos ?_)).mul (hg j)
  have h0 : 0 ≤ (∑ k, (f k - (∑ k, f k) * (1 / N)) * (f k - (∑ k, f k) * (1 / N))) * (1 / N) :=
    mul_nonneg (Finset.sum_nonneg fun k _ => mul_self_nonneg _) (by positivity)
  linarith

/-- The linear image of a row of reals under real weights and a real bias is a row of reals. -/
theorem project_isReal (u : Fin 768 → EReal) (W : Fin 768 → Fin 1024 → EReal) (b : Fin 1024 → EReal)
    (hu : ∀ p, IsReal (u p)) (hW : ∀ p d, IsReal (W p d)) (hb : ∀ d, IsReal (b d)) (d : Fin 1024) :
    IsReal (project u W b d) := by
  unfold project
  exact (IsReal.sum _ _ fun p _ => (hu p).mul (hW p d)).add (hb d)

end Cert.PatchEmbed

end
-- ==== Proof.Bridge.lean ====
import proofs.«408820_j90159953478038_3_alg».proof.Proof.Variance
import proofs.«408820_j90159953478038_3_alg».proof.Proof.Consts

/-! # On real inputs the one-pass result is the two-pass result

Row by row: the patches' row is real, so its two normalisations agree and are real; its linear image under real
weights and a real bias is real, so the two normalisations of the image agree. The last scale `γ_post` multiplies
both sides and need not be real. -/

noncomputable section

namespace Cert.PatchEmbed

open Idealize.ShloMosaic Idealize.ShloMosaic.ValueIdx Idealize.ShloMosaic.RealSums

theorem onePassResult_eq_twoPassResult (x : SX.Idx → EReal) (g1 : SG1.Idx → EReal) (W : SW.Idx → EReal)
    (b g2 : SG2.Idx → EReal) (hx : ∀ i, IsReal (x i)) (hg1 : ∀ i, IsReal (g1 i)) (hW : ∀ i, IsReal (W i))
    (hb : ∀ i, IsReal (b i)) :
    onePassResult x g1 W b g2 = twoPassResult x g1 W b g2 := by
  obtain ⟨e, he, heps⟩ := eps_pos
  have c768 : cnt768 = (((768 : ℕ) : ℝ) : EReal) := by rw [cnt768_eq]; norm_num
  have c1024 : cnt1024 = (((1024 : ℕ) : ℝ) : EReal) := by rw [cnt1024_eq]; norm_num
  funext i
  unfold onePassResult twoPassResult onePassAt twoPassAt
  rw [c768, c1024]
  rw [normOnePass_eq_normTwoPass (by norm_num) _ _ (fun p => hx _)]
  exact congrFun (normOnePass_eq_normTwoPass (by norm_num) _ _ (fun k => project_isReal _ _ _
    (fun p => normTwoPass_isReal _ (by norm_num) _ _ (fun p => hx _) (fun p => hg1 _) he heps p)
    (fun p d => hW _) (fun d => hb _) k)) (i 2)

end Cert.PatchEmbed

end
-- ==== Proof.lean ====
/- Patch embedding — LayerNorm over 768 features, a linear map to 1024 features, LayerNorm over those — as a tiled
   kernel against its array-level reference, over the extended reals.

   The kernel handles 1024 rows per grid point; for each row it takes the mean and the mean of the squares in one
   pass, reads the variance as their difference, normalises, multiplies by the weights (its narrowing of the operands
   to sixteen bits is the identity on exact values), adds the bias and normalises the 1024 results the same way. The
   reference takes each variance in two passes, as the mean of the squared deviations from the mean. On real numbers
   the two variances are one number because the divisor is the number of entries, and the precondition — every input
   entry finite — makes every row real; rows stay real through the normalisation and the linear map, so the second
   normalisation agrees as well.

   The pieces: the kernel's run with its result as one function of the arguments (KerRun over KerBody), the
   reference's run with its result as one term (RefRun over RefTerm) read entry by entry (RefRead), the precondition
   read as "every entry is real" (Finite), and the law joining the two variance forms (Variance, Bridge, Consts). -/
import proofs.«408820_j90159953478038_3_alg».proof.Defs
import proofs.«408820_j90159953478038_3_alg».proof.Proof.Gen.Kernel
import proofs.«408820_j90159953478038_3_alg».proof.Proof.Gen.Kernel.Skeleton
import proofs.«408820_j90159953478038_3_alg».proof.Proof.Gen.Kernel.Launch
import proofs.«408820_j90159953478038_3_alg».proof.Proof.Gen.Kernel.Points
import proofs.«408820_j90159953478038_3_alg».proof.Proof.Gen.Kernel.Frame
import proofs.«408820_j90159953478038_3_alg».proof.Proof.Gen.KernelIdeal
import proofs.«408820_j90159953478038_3_alg».proof.Proof.Gen.KernelIdeal.Skeleton
import proofs.«408820_j90159953478038_3_alg».proof.Proof.Gen.KernelIdeal.Launch
import proofs.«408820_j90159953478038_3_alg».proof.Proof.Gen.KernelIdeal.Points
import proofs.«408820_j90159953478038_3_alg».proof.Proof.Gen.KernelIdeal.Frame
import proofs.«408820_j90159953478038_3_alg».proof.Proof.Gen.ReferenceIdeal
import proofs.«408820_j90159953478038_3_alg».proof.Proof.Gen.Pre_finite_inputs
import proofs.«408820_j90159953478038_3_alg».proof.Proof.KerRun
import proofs.«408820_j90159953478038_3_alg».proof.Proof.RefRun
import proofs.«408820_j90159953478038_3_alg».proof.Proof.RefRead
import proofs.«408820_j90159953478038_3_alg».proof.Proof.Finite
import proofs.«408820_j90159953478038_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result forgotten. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- Both programs end with the same array: the kernel's is the one-pass result of the arguments, the reference's the
    two-pass result of arguments that agree with the kernel's, and on finite inputs the two results are one. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4⟩ := hagree c
  rw [h0, h1, h2, h3, h4, Cert.ReferenceIdeal.Hand.result_twoPass]
  obtain ⟨r0, r1, r2, r3, -⟩ := Cert.PatchEmbed.inputs_real _ _ _ _ _ (hpre c)
  exact (Cert.PatchEmbed.onePassResult_eq_twoPassResult _ _ _ _ _ r0 r1 r2 r3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
